-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x900x91 : Shape := ⟨3, ![32, 900, 91]⟩
abbrev S32x900x4 : Shape := ⟨3, ![32, 900, 4]⟩
abbrev S32x40 : Shape := ⟨2, ![32, 40]⟩
abbrev S32x40x4 : Shape := ⟨3, ![32, 40, 4]⟩
abbrev S_ : Shape := ⟨0, ![]⟩

class Facts : Prop where
  bcast_S_S32x900x91 : S_.BroadcastsInDim S32x900x91 (![] : Fin 0 → Fin S32x900x91.rank)
  reducesTo_S32x900x91_S_d0_1_2 : S32x900x91.ReducesTo [0, 1, 2] S_
  h_S_ : 0 < S_.numel
  bcast_S_S32x900x4 : S_.BroadcastsInDim S32x900x4 (![] : Fin 0 → Fin S32x900x4.rank)
  reducesTo_S32x900x4_S_d0_1_2 : S32x900x4.ReducesTo [0, 1, 2] S_
  bcast_S_S32x40x4 : S_.BroadcastsInDim S32x40x4 (![] : Fin 0 → Fin S32x40x4.rank)
  reducesTo_S32x40x4_S_d0_1_2 : S32x40x4.ReducesTo [0, 1, 2] S_
  bcast_S_S32x40 : S_.BroadcastsInDim S32x40 (![] : Fin 0 → Fin S32x40.rank)
  reducesTo_S32x40_S_d0_1 : S32x40.ReducesTo [0, 1] S_

variable [Facts]

def fn_part1 {F : FTy → Type} [FloatOps F] (main_arg2 : IVec S32x40 32) (main_v13 : IVec S_ 1) (main_v15 : IVec S32x40 1) (main_c_5 : IVec S_ 1) : IVec S_ 1 :=
  let main_v16 : IVec S_ 1 := (fun x v => Host.reduce IntOp.andi x v reducesTo_S32x40_S_d0_1 h_S_) main_v15 main_c_5
  let main_v17 : IVec S_ 1 := andi main_v13 main_v16
  let main_c_6 : IVec S_ 32 := constantI S_ 32 91#32
  let main_v18 : IVec S32x40 32 := broadcastInDim S32x40 ![] bcast_S_S32x40 main_c_6
  let main_v19 : IVec S32x40 1 := cmpi .slt main_arg2 main_v18
  let main_c_7 : IVec S_ 1 := constantI S_ 1 1#1
  let main_v20 : IVec S_ 1 := (fun x v => Host.reduce IntOp.andi x v reducesTo_S32x40_S_d0_1 h_S_) main_v19 main_c_7
  let main_v21 : IVec S_ 1 := andi main_v17 main_v20
  main_v21

def fn {F : FTy → Type} [FloatOps F] (main_arg0 : FVec F S32x900x91 .f32) (main_arg1 : FVec F S32x900x4 .f32) (main_arg2 : IVec S32x40 32) (main_arg3 : FVec F S32x40x4 .f32) : IVec S_ 1 :=
  let main_v0 : FVec F S32x900x91 .f32 := Host.absf main_arg0
  let main_cst : FVec F S_ .f32 := constant S_ .f32 0x7F800000#32
  let main_v1 : FVec F S32x900x91 .f32 := broadcastInDim S32x900x91 ![] bcast_S_S32x900x91 main_cst
  let main_v2 : IVec S32x900x91 1 := cmpf .olt main_v0 main_v1
  let main_c : IVec S_ 1 := constantI S_ 1 1#1
  let main_v3 : IVec S_ 1 := (fun x v => Host.reduce IntOp.andi x v reducesTo_S32x900x91_S_d0_1_2 h_S_) main_v2 main_c
  let main_v4 : FVec F S32x900x4 .f32 := Host.absf main_arg1
  let main_cst_0 : FVec F S_ .f32 := constant S_ .f32 0x7F800000#32
  let main_v5 : FVec F S32x900x4 .f32 := broadcastInDim S32x900x4 ![] bcast_S_S32x900x4 main_cst_0
  let main_v6 : IVec S32x900x4 1 := cmpf .olt main_v4 main_v5
  let main_c_1 : IVec S_ 1 := constantI S_ 1 1#1
  let main_v7 : IVec S_ 1 := (fun x v => Host.reduce IntOp.andi x v reducesTo_S32x900x4_S_d0_1_2 h_S_) main_v6 main_c_1
  let main_v8 : IVec S_ 1 := andi main_v3 main_v7
  let main_v9 : FVec F S32x40x4 .f32 := Host.absf main_arg3
  let main_cst_2 : FVec F S_ .f32 := constant S_ .f32 0x7F800000#32
  let main_v10 : FVec F S32x40x4 .f32 := broadcastInDim S32x40x4 ![] bcast_S_S32x40x4 main_cst_2
  let main_v11 : IVec S32x40x4 1 := cmpf .olt main_v9 main_v10
  let main_c_3 : IVec S_ 1 := constantI S_ 1 1#1
  let main_v12 : IVec S_ 1 := (fun x v => Host.reduce IntOp.andi x v reducesTo_S32x40x4_S_d0_1_2 h_S_) main_v11 main_c_3
  let main_v13 : IVec S_ 1 := andi main_v8 main_v12
  let main_c_4 : IVec S_ 32 := constantI S_ 32 0#32
  let main_v14 : IVec S32x40 32 := broadcastInDim S32x40 ![] bcast_S_S32x40 main_c_4
  let main_v15 : IVec S32x40 1 := cmpi .sge main_arg2 main_v14
  let main_c_5 : IVec S_ 1 := constantI S_ 1 1#1
  fn_part1 (F := F) main_arg2 main_v13 main_v15 main_c_5
-- ==== Kernel.lean ====
abbrev S32x900x91 : Shape := ⟨3, ![32, 900, 91]⟩
abbrev S32x900x4 : Shape := ⟨3, ![32, 900, 4]⟩
abbrev S32x40 : Shape := ⟨2, ![32, 40]⟩
abbrev S32x40x4 : Shape := ⟨3, ![32, 40, 4]⟩
abbrev S32x4x900 : Shape := ⟨3, ![32, 4, 900]⟩
abbrev S32x40x1 : Shape := ⟨3, ![32, 40, 1]⟩
abbrev S32x900x40 : Shape := ⟨3, ![32, 900, 40]⟩
abbrev S4x900x91 : Shape := ⟨3, ![4, 900, 91]⟩
abbrev S4x4x900 : Shape := ⟨3, ![4, 4, 900]⟩
abbrev S4x40x1 : Shape := ⟨3, ![4, 40, 1]⟩
abbrev S4x40x4 : Shape := ⟨3, ![4, 40, 4]⟩
abbrev S4x900x40 : Shape := ⟨3, ![4, 900, 40]⟩
abbrev S4x40x91 : Shape := ⟨3, ![4, 40, 91]⟩
abbrev S4x40x900 : Shape := ⟨3, ![4, 40, 900]⟩
abbrev S4x1x900 : Shape := ⟨3, ![4, 1, 900]⟩

abbrev nBuf : Space → Nat
  | .hbm => 7
  | .vmem => 10
  | .smem => 0
  | _ => 0

abbrev bufTy : (tb : Table) → Fin (tcTables nBuf tb) → BufTy
  | .hbm, ⟨0, _⟩ => ⟨S32x900x91, .f32⟩
  | .hbm, ⟨1, _⟩ => ⟨S32x900x4, .f32⟩
  | .hbm, ⟨2, _⟩ => ⟨S32x40, .i32⟩
  | .hbm, ⟨3, _⟩ => ⟨S32x40x4, .f32⟩
  | .hbm, ⟨4, _⟩ => ⟨S32x4x900, .f32⟩
  | .hbm, ⟨5, _⟩ => ⟨S32x40x1, .i32⟩
  | .hbm, ⟨6, _⟩ => ⟨S32x900x40, .f32⟩
  | .local _ .vmem, ⟨0, _⟩ => ⟨S4x900x91, .f32⟩
  | .local _ .vmem, ⟨1, _⟩ => ⟨S4x900x91, .f32⟩
  | .local _ .vmem, ⟨2, _⟩ => ⟨S4x4x900, .f32⟩
  | .local _ .vmem, ⟨3, _⟩ => ⟨S4x4x900, .f32⟩
  | .local _ .vmem, ⟨4, _⟩ => ⟨S4x40x1, .i32⟩
  | .local _ .vmem, ⟨5, _⟩ => ⟨S4x40x1, .i32⟩
  | .local _ .vmem, ⟨6, _⟩ => ⟨S4x40x4, .f32⟩
  | .local _ .vmem, ⟨7, _⟩ => ⟨S4x40x4, .f32⟩
  | .local _ .vmem, ⟨8, _⟩ => ⟨S4x900x40, .f32⟩
  | .local _ .vmem, ⟨9, _⟩ => ⟨S4x900x40, .f32⟩
  | _, _ => ⟨S32x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x900x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x900 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x40x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x40x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x900x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S32x900x4_S32x4x900_0_2_1 : S32x900x4.Transposes [0, 2, 1] S32x4x900
  bcast_S32x40_S32x40x1_0_1 : S32x40.BroadcastsInDim S32x40x1 (![0, 1] : Fin 2 → Fin S32x40x1.rank)
  inb_S4x900x91_S4x900x91_0_0_0 : ∀ a, (![0, 0, 0] : Fin 3 → Nat) a + S4x900x91.size a ≤ S4x900x91.size a
  h_S4x900x91 : 0 < S4x900x91.numel
  inb_S4x40x1_S4x40x1_0_0_0 : ∀ a, (![0, 0, 0] : Fin 3 → Nat) a + S4x40x1.size a ≤ S4x40x1.size a
  h_S4x40x1 : 0 < S4x40x1.numel
  shapeCasts_S4x40x1_S4x40x1 : S4x40x1.ShapeCasts S4x40x1
  iota_S4x40x91_d2_w32 : S4x40x91.Iotas .tc 32 [2]
  broadcasts_S4x40x1_S4x40x91 : S4x40x1.Broadcasts S4x40x91
  natLt_1_32 : 1 < 32
  inb_S4x4x900_S4x4x900_0_0_0 : ∀ a, (![0, 0, 0] : Fin 3 → Nat) a + S4x4x900.size a ≤ S4x4x900.size a
  h_S4x4x900 : 0 < S4x4x900.numel
  shapeCasts_S4x4x900_S4x4x900 : S4x4x900.ShapeCasts S4x4x900
  slices_S4x4x900_o0_0_0_S4x1x900 : S4x4x900.Slices ![0, 0, 0] S4x1x900
  slices_S4x4x900_o0_1_0_S4x1x900 : S4x4x900.Slices ![0, 1, 0] S4x1x900
  slices_S4x4x900_o0_2_0_S4x1x900 : S4x4x900.Slices ![0, 2, 0] S4x1x900
  slices_S4x4x900_o0_3_0_S4x1x900 : S4x4x900.Slices ![0, 3, 0] S4x1x900
  inb_S4x40x4_S4x40x4_0_0_0 : ∀ a, (![0, 0, 0] : Fin 3 → Nat) a + S4x40x4.size a ≤ S4x40x4.size a
  h_S4x40x4 : 0 < S4x40x4.numel
  slices_S4x40x4_o0_0_0_S4x40x1 : S4x40x4.Slices ![0, 0, 0] S4x40x1
  slices_S4x40x4_o0_0_1_S4x40x1 : S4x40x4.Slices ![0, 0, 1] S4x40x1
  slices_S4x40x4_o0_0_2_S4x40x1 : S4x40x4.Slices ![0, 0, 2] S4x40x1
  slices_S4x40x4_o0_0_3_S4x40x1 : S4x40x4.Slices ![0, 0, 3] S4x40x1
  broadcasts_S4x1x900_S4x40x900 : S4x1x900.Broadcasts S4x40x900
  broadcasts_S4x40x1_S4x40x900 : S4x40x1.Broadcasts S4x40x900
  transposes_S4x40x900_p0_2_1_S4x900x40 : S4x40x900.Transposes [0, 2, 1] S4x900x40
  inb_S4x900x40_S4x900x40_0_0_0 : ∀ a, (![0, 0, 0] : Fin 3 → Nat) a + S4x900x40.size a ≤ S4x900x40.size a
  h_S4x900x40 : 0 < S4x900x40.numel
  dot_S4x40x91_S4x900x91_S4x40x900_2_2_1_1_0_0_wf : DotDims.WF S4x40x91 S4x900x91 S4x40x900 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x900x91.size a ≤ S32x900x91.size a
  hwx0_0 : ∀ i : grid0.Coords, EltTy.bits .f32 = 32 ∨ (Rect.block (s := S32x900x91) S4x900x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4x900.size a ≤ S32x4x900.size a
  hwx0_1 : ∀ i : grid0.Coords, EltTy.bits .f32 = 32 ∨ (Rect.block (s := S32x4x900) S4x4x900.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x40x1.size a ≤ S32x40x1.size a
  hwx0_2 : ∀ i : grid0.Coords, EltTy.bits .i32 = 32 ∨ (Rect.block (s := S32x40x1) S4x40x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x40x4.size a ≤ S32x40x4.size a
  hwx0_3 : ∀ i : grid0.Coords, EltTy.bits .f32 = 32 ∨ (Rect.block (s := S32x40x4) S4x40x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x900x40.size a ≤ S32x900x40.size a
  hwx0_4 : ∀ i : grid0.Coords, EltTy.bits .f32 = 32 ∨ (Rect.block (s := S32x900x40) S4x900x40.size (cc0_transform_4 i) (hinb0_4 i)).WholeWords (EltTy.packing .f32)

variable [Facts₀]

def dot_S4x40x91_S4x900x91_S4x40x900_2_2_1_1_0_0 : DotDims S4x40x91 S4x900x91 S4x40x900 where
  lhsContracting := [2]
  rhsContracting := [2]
  lhsNonContracting := [1]
  rhsNonContracting := [1]
  lhsBatch := [0]
  rhsBatch := [0]
  wf := dot_S4x40x91_S4x900x91_S4x40x900_2_2_1_1_0_0_wf

abbrev win0_0 : Pipeline.Window sig grid0 :=
  Pipeline.Window.ofSpec (Memref.whole main_arg0) S4x900x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x4x900.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x40x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x40x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x900x40.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x900x91 : Shape := ⟨3, ![32, 900, 91]⟩
abbrev S32x900x4 : Shape := ⟨3, ![32, 900, 4]⟩
abbrev S32x40 : Shape := ⟨2, ![32, 40]⟩
abbrev S32x40x4 : Shape := ⟨3, ![32, 40, 4]⟩
abbrev S28800x91 : Shape := ⟨2, ![28800, 91]⟩
abbrev S_ : Shape := ⟨0, ![]⟩
abbrev S28800x4 : Shape := ⟨2, ![28800, 4]⟩
abbrev S1280 : Shape := ⟨1, ![1280]⟩
abbrev S1280x4 : Shape := ⟨2, ![1280, 4]⟩
abbrev S1280x1 : Shape := ⟨2, ![1280, 1]⟩
abbrev S28800x1280 : Shape := ⟨2, ![28800, 1280]⟩
abbrev S28800x1 : Shape := ⟨2, ![28800, 1]⟩
abbrev S28800 : Shape := ⟨1, ![28800]⟩
abbrev S1x1280 : Shape := ⟨2, ![1, 1280]⟩
abbrev S28800x2 : Shape := ⟨2, ![28800, 2]⟩
abbrev S28800x1x2 : Shape := ⟨3, ![28800, 1, 2]⟩
abbrev S1280x2 : Shape := ⟨2, ![1280, 2]⟩
abbrev S1x1280x2 : Shape := ⟨3, ![1, 1280, 2]⟩
abbrev S28800x1280x2 : Shape := ⟨3, ![28800, 1280, 2]⟩
abbrev S28800x1280x1 : Shape := ⟨3, ![28800, 1280, 1]⟩
abbrev S32x900x32x40 : Shape := ⟨4, ![32, 900, 32, 40]⟩
abbrev S32 : Shape := ⟨1, ![32]⟩
abbrev S32x1 : Shape := ⟨2, ![32, 1]⟩
abbrev S32x2 : Shape := ⟨2, ![32, 2]⟩
abbrev S32x900x40 : Shape := ⟨3, ![32, 900, 40]⟩

abbrev nBuf : Space → Nat
  | .hbm => 243
  | .vmem => 0
  | .smem => 0
  | _ => 0

abbrev hbmTy0_0 (i : Nat) : BufTy := match i % 128 with
  | 0 => ⟨S32x900x91, .f32⟩
  | 1 => ⟨S32x900x4, .f32⟩
  | 2 => ⟨S32x40, .i32⟩
  | 3 => ⟨S32x40x4, .f32⟩
  | 4 => ⟨S28800x91, .f32⟩
  | 5 => ⟨S28800x91, .f32⟩
  | 6 => ⟨S28800x91, .f32⟩
  | 7 => ⟨S_, .f32⟩
  | 8 => ⟨S28800x91, .f32⟩
  | 9 => ⟨S28800x91, .f32⟩
  | 10 => ⟨S_, .f32⟩
  | 11 => ⟨S28800x91, .f32⟩
  | 12 => ⟨S28800x91, .f32⟩
  | 13 => ⟨S28800x4, .f32⟩
  | 14 => ⟨S1280, .i32⟩
  | 15 => ⟨S1280x4, .f32⟩
  | 16 => ⟨S_, .i32⟩
  | 17 => ⟨S1280, .i32⟩
  | 18 => ⟨S1280, .i1⟩
  | 19 => ⟨S_, .i32⟩
  | 20 => ⟨S1280, .i32⟩
  | 21 => ⟨S1280, .i32⟩
  | 22 => ⟨S1280, .i32⟩
  | 23 => ⟨S1280x1, .i32⟩
  | 24 => ⟨S28800x1280, .f32⟩
  | 25 => ⟨S28800x1280, .f32⟩
  | 26 => ⟨S28800x1, .f32⟩
  | 27 => ⟨S28800, .f32⟩
  | 28 => ⟨S28800x1, .f32⟩
  | 29 => ⟨S1280x1, .f32⟩
  | 30 => ⟨S1280, .f32⟩
  | 31 => ⟨S1x1280, .f32⟩
  | 32 => ⟨S28800x1280, .f32⟩
  | 33 => ⟨S28800x1280, .f32⟩
  | 34 => ⟨S28800x1280, .f32⟩
  | 35 => ⟨S28800x1280, .f32⟩
  | 36 => ⟨S_, .f32⟩
  | 37 => ⟨S28800x1280, .f32⟩
  | 38 => ⟨S28800x1280, .f32⟩
  | 39 => ⟨S28800x1, .f32⟩
  | 40 => ⟨S28800, .f32⟩
  | 41 => ⟨S28800x1, .f32⟩
  | 42 => ⟨S1280x1, .f32⟩
  | 43 => ⟨S1280, .f32⟩
  | 44 => ⟨S1x1280, .f32⟩
  | 45 => ⟨S28800x1280, .f32⟩
  | 46 => ⟨S28800x1280, .f32⟩
  | 47 => ⟨S28800x1280, .f32⟩
  | 48 => ⟨S28800x1280, .f32⟩
  | 49 => ⟨S28800x1280, .f32⟩
  | 50 => ⟨S28800x1, .f32⟩
  | 51 => ⟨S28800, .f32⟩
  | 52 => ⟨S28800x1, .f32⟩
  | 53 => ⟨S1280x1, .f32⟩
  | 54 => ⟨S1280, .f32⟩
  | 55 => ⟨S1x1280, .f32⟩
  | 56 => ⟨S28800x1280, .f32⟩
  | 57 => ⟨S28800x1280, .f32⟩
  | 58 => ⟨S28800x1280, .f32⟩
  | 59 => ⟨S28800x1280, .f32⟩
  | 60 => ⟨S28800x1280, .f32⟩
  | 61 => ⟨S28800x1, .f32⟩
  | 62 => ⟨S28800, .f32⟩
  | 63 => ⟨S28800x1, .f32⟩
  | 64 => ⟨S1280x1, .f32⟩
  | 65 => ⟨S1280, .f32⟩
  | 66 => ⟨S1x1280, .f32⟩
  | 67 => ⟨S28800x1280, .f32⟩
  | 68 => ⟨S28800x1280, .f32⟩
  | 69 => ⟨S28800x1280, .f32⟩
  | 70 => ⟨S28800x1280, .f32⟩
  | 71 => ⟨S28800x1280, .f32⟩
  | 72 => ⟨S28800x1, .f32⟩
  | 73 => ⟨S28800, .f32⟩
  | 74 => ⟨S28800x1, .f32⟩
  | 75 => ⟨S28800, .f32⟩
  | 76 => ⟨S28800x1, .f32⟩
  | 77 => ⟨S28800, .f32⟩
  | 78 => ⟨S28800x1, .f32⟩
  | 79 => ⟨S28800, .f32⟩
  | 80 => ⟨S_, .f32⟩
  | 81 => ⟨S28800, .f32⟩
  | 82 => ⟨S28800, .f32⟩
  | 83 => ⟨S28800, .f32⟩
  | 84 => ⟨S_, .f32⟩
  | 85 => ⟨S28800, .f32⟩
  | 86 => ⟨S28800, .f32⟩
  | 87 => ⟨S28800, .f32⟩
  | 88 => ⟨S_, .f32⟩
  | 89 => ⟨S28800, .f32⟩
  | 90 => ⟨S28800, .f32⟩
  | 91 => ⟨S28800, .f32⟩
  | 92 => ⟨S_, .f32⟩
  | 93 => ⟨S28800, .f32⟩
  | 94 => ⟨S28800, .f32⟩
  | 95 => ⟨S28800, .f32⟩
  | 96 => ⟨S28800x1, .f32⟩
  | 97 => ⟨S28800x1, .f32⟩
  | 98 => ⟨S28800x1, .f32⟩
  | 99 => ⟨S28800x1, .f32⟩
  | 100 => ⟨S28800x4, .f32⟩
  | 101 => ⟨S1280x1, .f32⟩
  | 102 => ⟨S1280, .f32⟩
  | 103 => ⟨S1280x1, .f32⟩
  | 104 => ⟨S1280, .f32⟩
  | 105 => ⟨S1280x1, .f32⟩
  | 106 => ⟨S1280, .f32⟩
  | 107 => ⟨S1280x1, .f32⟩
  | 108 => ⟨S1280, .f32⟩
  | 109 => ⟨S_, .f32⟩
  | 110 => ⟨S1280, .f32⟩
  | 111 => ⟨S1280, .f32⟩
  | 112 => ⟨S1280, .f32⟩
  | 113 => ⟨S_, .f32⟩
  | 114 => ⟨S1280, .f32⟩
  | 115 => ⟨S1280, .f32⟩
  | 116 => ⟨S1280, .f32⟩
  | 117 => ⟨S_, .f32⟩
  | 118 => ⟨S1280, .f32⟩
  | 119 => ⟨S1280, .f32⟩
  | 120 => ⟨S1280, .f32⟩
  | 121 => ⟨S_, .f32⟩
  | 122 => ⟨S1280, .f32⟩
  | 123 => ⟨S1280, .f32⟩
  | 124 => ⟨S1280, .f32⟩
  | 125 => ⟨S1280x1, .f32⟩
  | 126 => ⟨S1280x1, .f32⟩
  | 127 => ⟨S1280x1, .f32⟩
  | _ => ⟨S32x900x91, .f32⟩

abbrev hbmTy0_1 (i : Nat) : BufTy := match i % 128 with
  | 0 => ⟨S1280x1, .f32⟩
  | 1 => ⟨S1280x4, .f32⟩
  | 2 => ⟨S28800x1, .f32⟩
  | 3 => ⟨S28800, .f32⟩
  | 4 => ⟨S28800x1, .f32⟩
  | 5 => ⟨S28800, .f32⟩
  | 6 => ⟨S28800, .f32⟩
  | 7 => ⟨S28800x1, .f32⟩
  | 8 => ⟨S28800, .f32⟩
  | 9 => ⟨S28800x1, .f32⟩
  | 10 => ⟨S28800, .f32⟩
  | 11 => ⟨S28800, .f32⟩
  | 12 => ⟨S28800, .f32⟩
  | 13 => ⟨S1280x1, .f32⟩
  | 14 => ⟨S1280, .f32⟩
  | 15 => ⟨S1280x1, .f32⟩
  | 16 => ⟨S1280, .f32⟩
  | 17 => ⟨S1280, .f32⟩
  | 18 => ⟨S1280x1, .f32⟩
  | 19 => ⟨S1280, .f32⟩
  | 20 => ⟨S1280x1, .f32⟩
  | 21 => ⟨S1280, .f32⟩
  | 22 => ⟨S1280, .f32⟩
  | 23 => ⟨S1280, .f32⟩
  | 24 => ⟨S28800x2, .f32⟩
  | 25 => ⟨S28800x1x2, .f32⟩
  | 26 => ⟨S1280x2, .f32⟩
  | 27 => ⟨S1x1280x2, .f32⟩
  | 28 => ⟨S28800x1280x2, .f32⟩
  | 29 => ⟨S28800x1280x2, .f32⟩
  | 30 => ⟨S28800x1280x2, .f32⟩
  | 31 => ⟨S28800x2, .f32⟩
  | 32 => ⟨S28800x1x2, .f32⟩
  | 33 => ⟨S1280x2, .f32⟩
  | 34 => ⟨S1x1280x2, .f32⟩
  | 35 => ⟨S28800x1280x2, .f32⟩
  | 36 => ⟨S28800x1280x2, .f32⟩
  | 37 => ⟨S28800x1280x2, .f32⟩
  | 38 => ⟨S28800x1280x2, .f32⟩
  | 39 => ⟨S_, .f32⟩
  | 40 => ⟨S_, .f32⟩
  | 41 => ⟨S28800x1280x2, .f32⟩
  | 42 => ⟨S28800x1280x2, .f32⟩
  | 43 => ⟨S28800x1280x1, .f32⟩
  | 44 => ⟨S28800x1280, .f32⟩
  | 45 => ⟨S28800x1280x1, .f32⟩
  | 46 => ⟨S28800x1280, .f32⟩
  | 47 => ⟨S28800x1280, .f32⟩
  | 48 => ⟨S28800x1, .f32⟩
  | 49 => ⟨S1x1280, .f32⟩
  | 50 => ⟨S28800x1280, .f32⟩
  | 51 => ⟨S28800x1280, .f32⟩
  | 52 => ⟨S28800x1280, .f32⟩
  | 53 => ⟨S28800x1280, .f32⟩
  | 54 => ⟨S28800x1280, .f32⟩
  | 55 => ⟨S28800x2, .f32⟩
  | 56 => ⟨S28800x1x2, .f32⟩
  | 57 => ⟨S1280x2, .f32⟩
  | 58 => ⟨S1x1280x2, .f32⟩
  | 59 => ⟨S28800x1280x2, .f32⟩
  | 60 => ⟨S28800x1280x2, .f32⟩
  | 61 => ⟨S28800x1280x2, .f32⟩
  | 62 => ⟨S28800x2, .f32⟩
  | 63 => ⟨S28800x1x2, .f32⟩
  | 64 => ⟨S1280x2, .f32⟩
  | 65 => ⟨S1x1280x2, .f32⟩
  | 66 => ⟨S28800x1280x2, .f32⟩
  | 67 => ⟨S28800x1280x2, .f32⟩
  | 68 => ⟨S28800x1280x2, .f32⟩
  | 69 => ⟨S28800x1280x2, .f32⟩
  | 70 => ⟨S_, .f32⟩
  | 71 => ⟨S_, .f32⟩
  | 72 => ⟨S28800x1280x2, .f32⟩
  | 73 => ⟨S28800x1280x2, .f32⟩
  | 74 => ⟨S28800x1280x1, .f32⟩
  | 75 => ⟨S28800x1280, .f32⟩
  | 76 => ⟨S28800x1280x1, .f32⟩
  | 77 => ⟨S28800x1280, .f32⟩
  | 78 => ⟨S28800x1280, .f32⟩
  | 79 => ⟨S28800x1280, .f32⟩
  | 80 => ⟨S28800x1280, .f32⟩
  | 81 => ⟨S28800x1280, .f32⟩
  | 82 => ⟨S28800x1280, .f32⟩
  | 83 => ⟨S_, .f32⟩
  | 84 => ⟨S28800x1280, .f32⟩
  | 85 => ⟨S28800x1280, .f32⟩
  | 86 => ⟨S_, .f32⟩
  | 87 => ⟨S28800x1280, .f32⟩
  | 88 => ⟨S28800x1280, .f32⟩
  | 89 => ⟨S28800x1280, .f32⟩
  | 90 => ⟨S_, .f32⟩
  | 91 => ⟨S28800x1280, .f32⟩
  | 92 => ⟨S28800x1280, .f32⟩
  | 93 => ⟨S28800x1280, .f32⟩
  | 94 => ⟨S32x900x32x40, .f32⟩
  | 95 => ⟨S32, .i32⟩
  | 96 => ⟨S32, .i32⟩
  | 97 => ⟨S_, .i32⟩
  | 98 => ⟨S32, .i32⟩
  | 99 => ⟨S32, .i1⟩
  | 100 => ⟨S_, .i32⟩
  | 101 => ⟨S32, .i32⟩
  | 102 => ⟨S32, .i32⟩
  | 103 => ⟨S32, .i32⟩
  | 104 => ⟨S_, .i32⟩
  | 105 => ⟨S32, .i32⟩
  | 106 => ⟨S32, .i1⟩
  | 107 => ⟨S_, .i32⟩
  | 108 => ⟨S32, .i32⟩
  | 109 => ⟨S32, .i32⟩
  | 110 => ⟨S32, .i32⟩
  | 111 => ⟨S32x1, .i32⟩
  | 112 => ⟨S32x1, .i32⟩
  | 113 => ⟨S32x2, .i32⟩
  | 114 => ⟨S32x900x40, .f32⟩
  | _ => ⟨S32x900x91, .f32⟩

abbrev hbmTy (i : Nat) : BufTy := match i / 128 with
  | 0 => hbmTy0_0 i
  | 1 => hbmTy0_1 i
  | _ => ⟨S32x900x91, .f32⟩

abbrev bufTy : (tb : Table) → Fin (tcTables nBuf tb) → BufTy
  | .hbm, ⟨i, _⟩ => hbmTy i
  | _, _ => ⟨S32x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_3 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_4 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_5 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_6 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_7 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_cst_8 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_9 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_10 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_cst_11 : Ref sig .tc := ⟨.hbm, 167, rfl⟩
abbrev main_call0_v0 : Ref sig .tc := ⟨.hbm, 168, rfl⟩
abbrev main_call0_v1 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_cst_12 : Ref sig .tc := ⟨.hbm, 198, rfl⟩
abbrev main_call1_v0 : Ref sig .tc := ⟨.hbm, 199, rfl⟩
abbrev main_call1_v1 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_cst_13 : Ref sig .tc := ⟨.hbm, 211, rfl⟩
abbrev main_v188 : Ref sig .tc := ⟨.hbm, 212, rfl⟩
abbrev main_v189 : Ref sig .tc := ⟨.hbm, 213, rfl⟩
abbrev main_cst_14 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_cst_15 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_c_16 : Ref sig .tc := ⟨.hbm, 225, rfl⟩
abbrev main_v199 : Ref sig .tc := ⟨.hbm, 226, rfl⟩
abbrev main_v200 : Ref sig .tc := ⟨.hbm, 227, rfl⟩
abbrev main_c_17 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_c_18 : Ref sig .tc := ⟨.hbm, 232, rfl⟩
abbrev main_v204 : Ref sig .tc := ⟨.hbm, 233, rfl⟩
abbrev main_v205 : Ref sig .tc := ⟨.hbm, 234, rfl⟩
abbrev main_c_19 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩

abbrev nD : Nat := 1
abbrev τ : Topo := Topo.v7x

variable {F : FTy → Type} [FloatOps F]

class Facts₀ : Prop where
  shapeCasts_S32x900x91_S28800x91 : S32x900x91.ShapeCasts S28800x91
  bcast_S_S28800x91 : S_.BroadcastsInDim S28800x91 (![] : Fin 0 → Fin S28800x91.rank)
  shapeCasts_S32x900x4_S28800x4 : S32x900x4.ShapeCasts S28800x4
  shapeCasts_S32x40_S1280 : S32x40.ShapeCasts S1280
  shapeCasts_S32x40x4_S1280x4 : S32x40x4.ShapeCasts S1280x4
  bcast_S_S1280 : S_.BroadcastsInDim S1280 (![] : Fin 0 → Fin S1280.rank)
  bcast_S1280_S1280x1_0 : S1280.BroadcastsInDim S1280x1 (![0] : Fin 1 → Fin S1280x1.rank)
  slices_S28800x4_S28800x1_0_0 : S28800x4.Slices ![0, 0] S28800x1
  shapeCasts_S28800x1_S28800 : S28800x1.ShapeCasts S28800
  bcast_S28800_S28800x1_0 : S28800.BroadcastsInDim S28800x1 (![0] : Fin 1 → Fin S28800x1.rank)
  slices_S1280x4_S1280x1_0_0 : S1280x4.Slices ![0, 0] S1280x1
  shapeCasts_S1280x1_S1280 : S1280x1.ShapeCasts S1280
  bcast_S1280_S1x1280_1 : S1280.BroadcastsInDim S1x1280 (![1] : Fin 1 → Fin S1x1280.rank)
  bcast_S28800x1_S28800x1280_0_1 : S28800x1.BroadcastsInDim S28800x1280 (![0, 1] : Fin 2 → Fin S28800x1280.rank)
  bcast_S1x1280_S28800x1280_0_1 : S1x1280.BroadcastsInDim S28800x1280 (![0, 1] : Fin 2 → Fin S28800x1280.rank)
  bcast_S_S28800x1280 : S_.BroadcastsInDim S28800x1280 (![] : Fin 0 → Fin S28800x1280.rank)
  slices_S28800x4_S28800x1_0_1 : S28800x4.Slices ![0, 1] S28800x1
  slices_S1280x4_S1280x1_0_1 : S1280x4.Slices ![0, 1] S1280x1
  slices_S28800x4_S28800x1_0_2 : S28800x4.Slices ![0, 2] S28800x1
  slices_S1280x4_S1280x1_0_2 : S1280x4.Slices ![0, 2] S1280x1
  slices_S28800x4_S28800x1_0_3 : S28800x4.Slices ![0, 3] S28800x1
  slices_S1280x4_S1280x1_0_3 : S1280x4.Slices ![0, 3] S1280x1
  bcast_S_S28800 : S_.BroadcastsInDim S28800 (![] : Fin 0 → Fin S28800.rank)
  concatenates_S28800x1_S28800x1_S28800x1_S28800x1_S28800x4_d1 : Shape.Concatenates [S28800x1, S28800x1, S28800x1, S28800x1] S28800x4 1
  concatenates_S1280x1_S1280x1_S1280x1_S1280x1_S1280x4_d1 : Shape.Concatenates [S1280x1, S1280x1, S1280x1, S1280x1] S1280x4 1
  slices_S28800x4_S28800x2_0_0 : S28800x4.Slices ![0, 0] S28800x2
  bcast_S28800x2_S28800x1x2_0_2 : S28800x2.BroadcastsInDim S28800x1x2 (![0, 2] : Fin 2 → Fin S28800x1x2.rank)
  slices_S1280x4_S1280x2_0_0 : S1280x4.Slices ![0, 0] S1280x2
  bcast_S1280x2_S1x1280x2_1_2 : S1280x2.BroadcastsInDim S1x1280x2 (![1, 2] : Fin 2 → Fin S1x1280x2.rank)
  bcast_S28800x1x2_S28800x1280x2_0_1_2 : S28800x1x2.BroadcastsInDim S28800x1280x2 (![0, 1, 2] : Fin 3 → Fin S28800x1280x2.rank)
  bcast_S1x1280x2_S28800x1280x2_0_1_2 : S1x1280x2.BroadcastsInDim S28800x1280x2 (![0, 1, 2] : Fin 3 → Fin S28800x1280x2.rank)
  slices_S28800x4_S28800x2_0_2 : S28800x4.Slices ![0, 2] S28800x2
  slices_S1280x4_S1280x2_0_2 : S1280x4.Slices ![0, 2] S1280x2
  bcast_S_S28800x1280x2 : S_.BroadcastsInDim S28800x1280x2 (![] : Fin 0 → Fin S28800x1280x2.rank)
  slices_S28800x1280x2_S28800x1280x1_0_0_0 : S28800x1280x2.Slices ![0, 0, 0] S28800x1280x1
  shapeCasts_S28800x1280x1_S28800x1280 : S28800x1280x1.ShapeCasts S28800x1280
  slices_S28800x1280x2_S28800x1280x1_0_0_1 : S28800x1280x2.Slices ![0, 0, 1] S28800x1280x1
  shapeCasts_S28800x1280_S32x900x32x40 : S28800x1280.ShapeCasts S32x900x32x40
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  gather_S28800x91_S1280x1_S28800x1280_0_1_n_n_1_1_288001_wf : GatherDims.WF S28800x91 S1280x1 S28800x1280 [0] [1] [] [1] [] 1 ![28800, 1]
  gather_S32x900x32x40_S32x2_S32x900x40_12_02_n_n_02_1_1900140_wf : GatherDims.WF S32x900x32x40 S32x2 S32x900x40 [1, 2] [0, 2] [] [0, 2] [] 1 ![1, 900, 1, 40]

variable [Facts₀]

def gather_S28800x91_S1280x1_S28800x1280_0_1_n_n_1_1_288001 : GatherDims S28800x91 S1280x1 S28800x1280 where
  offsetDims := [0]
  collapsedSliceDims := [1]
  operandBatchingDims := []
  startIndicesBatchingDims := []
  startIndexMap := [1]
  indexVectorDim := 1
  sliceSizes := ![28800, 1]
  wf := gather_S28800x91_S1280x1_S28800x1280_0_1_n_n_1_1_288001_wf
def gather_S32x900x32x40_S32x2_S32x900x40_12_02_n_n_02_1_1900140 : GatherDims S32x900x32x40 S32x2 S32x900x40 where
  offsetDims := [1, 2]
  collapsedSliceDims := [0, 2]
  operandBatchingDims := []
  startIndicesBatchingDims := []
  startIndexMap := [0, 2]
  indexVectorDim := 1
  sliceSizes := ![1, 900, 1, 40]
  wf := gather_S32x900x32x40_S32x2_S32x900x40_12_02_n_n_02_1_1900140_wf

class Facts : Prop extends Facts₀ where

variable [Facts]
-- ==== Proof.MatchCost.lean ====
/-
  The cost that a set-prediction matcher gives one (query, target) pair, as a function of nine numbers and a class
  term; and the whole cost array of a batch of images as ONE function of the four input arrays.

  A box is given by its centre and size (cx, cy, w, h); its corners are  lo = c − ½·s  and  hi = c + ½·s  on each axis.
  For a predicted box p and a target box t:
    overlap on an axis  = max (min hi_p hi_t − max lo_p lo_t) 0,      inter = overlap_x · overlap_y,
    side on an axis     = hi − lo,                                    area  = side_x · side_y,
    union               = (area_p + area_t) − inter,
    span on an axis     = max (max hi_p hi_t − min lo_p lo_t) 0,      hull  = span_x · span_y,
    giou                = inter / union − (hull − union) / hull,
    l1                  = |cx_p − cx_t| + |cy_p − cy_t| + |w_p − w_t| + |h_p − h_t|,
    cost                = (2 · cls + 5 · l1) + 2 · (0 − giou),
  where cls is minus the predicted probability of the target's class. Everything is stated once, for any float
  family, in the order of operations written here; at the extended reals each operation is the exact one, the quotient
  is the total quotient of the extended reals, and no finiteness is used anywhere: both programs apply the same
  operations to the same numbers.
-/
import Idealize.ShloMosaic.PureOps.Ideal
import Idealize.ShloMosaic.PureOps.Ideal.Laws
import Idealize.ShloMosaic.Lib.ValueIdx

noncomputable section

namespace Cert.MatchCost

open Idealize.ShloMosaic Idealize.ShloMosaic.ValueIdx

section AnyFamily
variable {F : FTy → Type} [FloatOps F]

/-- The lower corner c − ½·s of a box on one axis. -/
def lo (c s : F .f32) : F .f32 := FloatOps.subf c (FloatOps.mulf (Scalar.ofBits .f32 0x3F000000#32) s)
/-- The upper corner c + ½·s. -/
def hi (c s : F .f32) : F .f32 := FloatOps.addf c (FloatOps.mulf (Scalar.ofBits .f32 0x3F000000#32) s)
/-- The length of the two boxes' common part on one axis, 0 when they do not meet. -/
def overlap (pc ps tc ts : F .f32) : F .f32 :=
  FloatOps.maximumf (FloatOps.subf (FloatOps.minimumf (hi pc ps) (hi tc ts)) (FloatOps.maximumf (lo pc ps) (lo tc ts)))
    (Scalar.ofBits .f32 0x00000000#32)
/-- The length of the smallest interval holding both boxes on one axis. -/
def span (pc ps tc ts : F .f32) : F .f32 :=
  FloatOps.maximumf (FloatOps.subf (FloatOps.maximumf (hi pc ps) (hi tc ts)) (FloatOps.minimumf (lo pc ps) (lo tc ts)))
    (Scalar.ofBits .f32 0x00000000#32)
/-- A box's side on one axis, hi − lo. -/
def side (c s : F .f32) : F .f32 := FloatOps.subf (hi c s) (lo c s)
/-- The area of the two boxes' common part. -/
def inter (p0 p1 p2 p3 t0 t1 t2 t3 : F .f32) : F .f32 := FloatOps.mulf (overlap p0 p2 t0 t2) (overlap p1 p3 t1 t3)
/-- The area of the two boxes' union: the two areas minus the common part. -/
def union (p0 p1 p2 p3 t0 t1 t2 t3 : F .f32) : F .f32 :=
  FloatOps.subf (FloatOps.addf (FloatOps.mulf (side p0 p2) (side p1 p3)) (FloatOps.mulf (side t0 t2) (side t1 t3)))
    (inter p0 p1 p2 p3 t0 t1 t2 t3)
/-- The area of the smallest box holding both. -/
def hull (p0 p1 p2 p3 t0 t1 t2 t3 : F .f32) : F .f32 := FloatOps.mulf (span p0 p2 t0 t2) (span p1 p3 t1 t3)
/-- The generalized intersection over union. -/
def giou (p0 p1 p2 p3 t0 t1 t2 t3 : F .f32) : F .f32 :=
  FloatOps.subf (FloatOps.divf (inter p0 p1 p2 p3 t0 t1 t2 t3) (union p0 p1 p2 p3 t0 t1 t2 t3))
    (FloatOps.divf (FloatOps.subf (hull p0 p1 p2 p3 t0 t1 t2 t3) (union p0 p1 p2 p3 t0 t1 t2 t3)) (hull p0 p1 p2 p3 t0 t1 t2 t3))
/-- The L1 distance of the two boxes' (cx, cy, w, h). -/
def l1 (p0 p1 p2 p3 t0 t1 t2 t3 : F .f32) : F .f32 :=
  FloatOps.addf (FloatOps.addf (FloatOps.addf (FloatOps.absf (FloatOps.subf p0 t0)) (FloatOps.absf (FloatOps.subf p1 t1)))
    (FloatOps.absf (FloatOps.subf p2 t2))) (FloatOps.absf (FloatOps.subf p3 t3))
/-- The pair's cost: (2·cls + 5·l1) + 2·(0 − giou). -/
def cost (cls p0 p1 p2 p3 t0 t1 t2 t3 : F .f32) : F .f32 :=
  FloatOps.addf (FloatOps.addf (FloatOps.mulf (Scalar.ofBits .f32 0x40000000#32) cls)
      (FloatOps.mulf (Scalar.ofBits .f32 0x40A00000#32) (l1 p0 p1 p2 p3 t0 t1 t2 t3)))
    (FloatOps.mulf (Scalar.ofBits .f32 0x40000000#32)
      (FloatOps.subf (Scalar.ofBits .f32 0x00000000#32) (giou p0 p1 p2 p3 t0 t1 t2 t3)))

end AnyFamily

/-! ## The whole array, at the extended reals -/

/-- The weight class c gets from a target label: 1 when the label is c, else 0 (the comparison's bit, widened and
    converted). -/
def hot (label : BitVec 32) (c : Fin 91) : EReal :=
  FloatOps.sitofp (F := Ideal) .f32 ((IntOp.cmpi .eq (BitVec.ofNat 32 c.val) label).setWidth 32)

/-- The class term of image b, query q, target g: 0 minus the sum over the 91 classes of the target's weight times the
    query's class probability. -/
def cls (logits : FVec Ideal ⟨3, ![32, 900, 91]⟩ .f32) (labels : IVec ⟨2, ![32, 40]⟩ 32) (b : Fin 32) (q : Fin 900) (g : Fin 40) : EReal :=
  Ideal.ofBits .f32 0x00000000#32 - ∑ c : Fin 91, hot (labels (ix2 b g)) c * Ideal.logistic (logits (ix3 b q c))

/-- The cost array [32 images, 900 queries, 40 targets] as one function of the class logits [32, 900, 91], the
    predicted boxes [32, 900, 4], the target labels [32, 40] and the target boxes [32, 40, 4]. -/
def G (logits : FVec Ideal ⟨3, ![32, 900, 91]⟩ .f32) (boxes : FVec Ideal ⟨3, ![32, 900, 4]⟩ .f32)
    (labels : IVec ⟨2, ![32, 40]⟩ 32) (tboxes : FVec Ideal ⟨3, ![32, 40, 4]⟩ .f32) :
    FVec Ideal ⟨3, ![32, 900, 40]⟩ .f32 := fun i =>
  cost (F := Ideal) (cls logits labels (i 0) (i 1) (i 2))
    (boxes (ix3 (i 0) (i 1) (0 : Fin 4))) (boxes (ix3 (i 0) (i 1) (1 : Fin 4))) (boxes (ix3 (i 0) (i 1) (2 : Fin 4))) (boxes (ix3 (i 0) (i 1) (3 : Fin 4)))
    (tboxes (ix3 (i 0) (i 2) (0 : Fin 4))) (tboxes (ix3 (i 0) (i 2) (1 : Fin 4))) (tboxes (ix3 (i 0) (i 2) (2 : Fin 4))) (tboxes (ix3 (i 0) (i 2) (3 : Fin 4)))

/-- Row b·900 + q of an array whose first two axes [32, 900] are flattened to [28800]. -/
def rowQ (b : Fin 32) (q : Fin 900) : Fin 28800 := ⟨b.val * 900 + q.val, by have := b.isLt; have := q.isLt; omega⟩
/-- Row b·40 + g of an array whose first two axes [32, 40] are flattened to [1280]. -/
def rowG (b : Fin 32) (g : Fin 40) : Fin 1280 := ⟨b.val * 40 + g.val, by have := b.isLt; have := g.isLt; omega⟩

/-- Every target label is one of the 91 classes. -/
def LabelsInRange (labels : IVec ⟨2, ![32, 40]⟩ 32) : Prop :=
  ∀ (b : Fin 32) (g : Fin 40), ∃ k : Fin 91, labels (ix2 b g) = BitVec.ofNat 32 k.val

end Cert.MatchCost

end
-- ==== Proof.KPoint.lean ====
/-
  One grid point of the kernel, read off the body directly. The body stores ONE piece through the whole output block
  [4, 900, 40]: the transpose of a [4, 40, 900] array computed pointwise from the class piece [4, 40, 900], the four rows
  [4, 1, 900] of the predicted-box block repeated along the 40 targets, and the four columns [4, 40, 1] of the target-box
  block repeated along the 900 queries. So the block's entry (b, q, g) is the pointwise expression at (b, g, q), each row
  read at (b, k, q) and each column at (b, g, k): the pair cost of those nine numbers. The class piece is a batched
  product of the one-hot table [4, 40, 91] of the labels with the class probabilities [4, 900, 91] over the 91 classes,
  subtracted from 0.
-/
import proofs.«404723_j42305427865906_3_alg».proof.Proof.Gen.KernelIdeal.Frame
import proofs.«404723_j42305427865906_3_alg».proof.Proof.MatchCost
import Idealize.ShloMosaic.Lib.Pipeline.Value
import Idealize.ShloMosaic.Lib.ValueIdx
import Idealize.ShloMosaic.PureOps.Ideal.Laws

noncomputable section

namespace Cert.KernelIdeal.Point

open Cert.KernelIdeal Cert.KernelIdeal.Gen Idealize.ShloMosaic Idealize.ShloMosaic.ValueIdx Cert.MatchCost

/-! ## The body's layout operations read at an index -/

section Layout
variable {α : Type}

/-- The transposed block at (b, q, g) is the block at (b, g, q). -/
theorem tr_at (v : S4x40x900.Idx → α) (b : Fin 4) (q : Fin 900) (g : Fin 40) :
    transpose S4x900x40 [0, 2, 1] v transposes_S4x40x900_p0_2_1_S4x900x40 (ix3 b q g) = v (ix3 b g q) :=
  transpose_apply _ v _ (ix3 b q g) (ix3 b g q) (by
    intro a
    match a with
    | ⟨0, _⟩ => rfl
    | ⟨1, _⟩ => rfl
    | ⟨2, _⟩ => rfl)

/-- A row [4, 1, 900] repeated along the 40 targets: at (b, g, q) it is the row at (b, 0, q). -/
theorem bcRow_at (v : S4x1x900.Idx → α) (b : Fin 4) (g : Fin 40) (q : Fin 900) :
    broadcastTo S4x40x900 v broadcasts_S4x1x900_S4x40x900 (ix3 b g q) = v (ix3 b (0 : Fin 1) q) :=
  broadcastTo_apply v _ (ix3 b g q) (ix3 b (0 : Fin 1) q) (by
    intro a
    match a with
    | ⟨0, _⟩ => rfl
    | ⟨1, _⟩ => rfl
    | ⟨2, _⟩ => rfl)

/-- A column [4, 40, 1] repeated along the 900 queries: at (b, g, q) it is the column at (b, g, 0). -/
theorem bcCol_at (w : S4x40x1.Idx → α) (b : Fin 4) (g : Fin 40) (q : Fin 900) :
    broadcastTo S4x40x900 w broadcasts_S4x40x1_S4x40x900 (ix3 b g q) = w (ix3 b g (0 : Fin 1)) :=
  broadcastTo_apply w _ (ix3 b g q) (ix3 b g (0 : Fin 1)) (by
    intro a
    match a with
    | ⟨0, _⟩ => rfl
    | ⟨1, _⟩ => rfl
    | ⟨2, _⟩ => rfl)

/-- Row 0 of the predicted-box block. -/
theorem row0_at (v : S4x4x900.Idx → α) (b : Fin 4) (q : Fin 900) :
    extractStridedSlice S4x1x900 ![0, 0, 0] v slices_S4x4x900_o0_0_0_S4x1x900 (ix3 b (0 : Fin 1) q) = v (ix3 b (0 : Fin 4) q) :=
  extractStridedSlice_apply _ v _ (ix3 b (0 : Fin 1) q) (ix3 b (0 : Fin 4) q) (by
    intro a
    match a with
    | ⟨0, _⟩ => exact (Nat.zero_add _).symm
    | ⟨1, _⟩ => rfl
    | ⟨2, _⟩ => exact (Nat.zero_add _).symm)
/-- Row 1 of the predicted-box block. -/
theorem row1_at (v : S4x4x900.Idx → α) (b : Fin 4) (q : Fin 900) :
    extractStridedSlice S4x1x900 ![0, 1, 0] v slices_S4x4x900_o0_1_0_S4x1x900 (ix3 b (0 : Fin 1) q) = v (ix3 b (1 : Fin 4) q) :=
  extractStridedSlice_apply _ v _ (ix3 b (0 : Fin 1) q) (ix3 b (1 : Fin 4) q) (by
    intro a
    match a with
    | ⟨0, _⟩ => exact (Nat.zero_add _).symm
    | ⟨1, _⟩ => rfl
    | ⟨2, _⟩ => exact (Nat.zero_add _).symm)
/-- Row 2 of the predicted-box block. -/
theorem row2_at (v : S4x4x900.Idx → α) (b : Fin 4) (q : Fin 900) :
    extractStridedSlice S4x1x900 ![0, 2, 0] v slices_S4x4x900_o0_2_0_S4x1x900 (ix3 b (0 : Fin 1) q) = v (ix3 b (2 : Fin 4) q) :=
  extractStridedSlice_apply _ v _ (ix3 b (0 : Fin 1) q) (ix3 b (2 : Fin 4) q) (by
    intro a
    match a with
    | ⟨0, _⟩ => exact (Nat.zero_add _).symm
    | ⟨1, _⟩ => rfl
    | ⟨2, _⟩ => exact (Nat.zero_add _).symm)
/-- Row 3 of the predicted-box block. -/
theorem row3_at (v : S4x4x900.Idx → α) (b : Fin 4) (q : Fin 900) :
    extractStridedSlice S4x1x900 ![0, 3, 0] v slices_S4x4x900_o0_3_0_S4x1x900 (ix3 b (0 : Fin 1) q) = v (ix3 b (3 : Fin 4) q) :=
  extractStridedSlice_apply _ v _ (ix3 b (0 : Fin 1) q) (ix3 b (3 : Fin 4) q) (by
    intro a
    match a with
    | ⟨0, _⟩ => exact (Nat.zero_add _).symm
    | ⟨1, _⟩ => rfl
    | ⟨2, _⟩ => exact (Nat.zero_add _).symm)

/-- Column 0 of the target-box block. -/
theorem col0_at (w : S4x40x4.Idx → α) (b : Fin 4) (g : Fin 40) :
    extractStridedSlice S4x40x1 ![0, 0, 0] w slices_S4x40x4_o0_0_0_S4x40x1 (ix3 b g (0 : Fin 1)) = w (ix3 b g (0 : Fin 4)) :=
  extractStridedSlice_apply _ w _ (ix3 b g (0 : Fin 1)) (ix3 b g (0 : Fin 4)) (by
    intro a
    match a with
    | ⟨0, _⟩ => exact (Nat.zero_add _).symm
    | ⟨1, _⟩ => exact (Nat.zero_add _).symm
    | ⟨2, _⟩ => rfl)
/-- Column 1 of the target-box block. -/
theorem col1_at (w : S4x40x4.Idx → α) (b : Fin 4) (g : Fin 40) :
    extractStridedSlice S4x40x1 ![0, 0, 1] w slices_S4x40x4_o0_0_1_S4x40x1 (ix3 b g (0 : Fin 1)) = w (ix3 b g (1 : Fin 4)) :=
  extractStridedSlice_apply _ w _ (ix3 b g (0 : Fin 1)) (ix3 b g (1 : Fin 4)) (by
    intro a
    match a with
    | ⟨0, _⟩ => exact (Nat.zero_add _).symm
    | ⟨1, _⟩ => exact (Nat.zero_add _).symm
    | ⟨2, _⟩ => rfl)
/-- Column 2 of the target-box block. -/
theorem col2_at (w : S4x40x4.Idx → α) (b : Fin 4) (g : Fin 40) :
    extractStridedSlice S4x40x1 ![0, 0, 2] w slices_S4x40x4_o0_0_2_S4x40x1 (ix3 b g (0 : Fin 1)) = w (ix3 b g (2 : Fin 4)) :=
  extractStridedSlice_apply _ w _ (ix3 b g (0 : Fin 1)) (ix3 b g (2 : Fin 4)) (by
    intro a
    match a with
    | ⟨0, _⟩ => exact (Nat.zero_add _).symm
    | ⟨1, _⟩ => exact (Nat.zero_add _).symm
    | ⟨2, _⟩ => rfl)
/-- Column 3 of the target-box block. -/
theorem col3_at (w : S4x40x4.Idx → α) (b : Fin 4) (g : Fin 40) :
    extractStridedSlice S4x40x1 ![0, 0, 3] w slices_S4x40x4_o0_0_3_S4x40x1 (ix3 b g (0 : Fin 1)) = w (ix3 b g (3 : Fin 4)) :=
  extractStridedSlice_apply _ w _ (ix3 b g (0 : Fin 1)) (ix3 b g (3 : Fin 4)) (by
    intro a
    match a with
    | ⟨0, _⟩ => exact (Nat.zero_add _).symm
    | ⟨1, _⟩ => exact (Nat.zero_add _).symm
    | ⟨2, _⟩ => rfl)

end Layout

/-! ## The block's entry -/

/-- The block's entry (b, q, g) is the pair cost of the class piece at (b, g, q) and the two boxes' entries. -/
theorem out_cost {F : FTy → Type} [FloatOps F] (x0 : Vec F S4x900x91 .f32) (x1 : Vec F S4x4x900 .f32) (x2 : Vec F S4x40x1 .i32) (x3 : Vec F S4x40x4 .f32) (b : Fin 4) (q : Fin 900) (g : Fin 40) :
    Cert.KernelIdeal.Gen.out0_4 x0 x1 x2 x3 (ix3 b q g) =
      cost (k0_pay2 x0 x2 (ix3 b g q))
        (x1 (ix3 b (0 : Fin 4) q)) (x1 (ix3 b (1 : Fin 4) q)) (x1 (ix3 b (2 : Fin 4) q)) (x1 (ix3 b (3 : Fin 4) q))
        (x3 (ix3 b g (0 : Fin 4))) (x3 (ix3 b g (1 : Fin 4))) (x3 (ix3 b g (2 : Fin 4))) (x3 (ix3 b g (3 : Fin 4))) := by
  have hz : (![0, 0, 0] : Fin 3 → Nat) = fun _ => 0 := funext fun a => by fin_cases a <;> rfl
  -- one piece through the whole block leaves its payload; a load through a whole block reads it
  unfold out0_4
  rw [View.canon_unit_zero hz]
  simp only [View.ld_unit_zero (S := S4x900x91) hz, View.ld_unit_zero (S := S4x40x1) hz, View.ld_unit_zero (S := S4x4x900) hz, View.ld_unit_zero (S := S4x40x4) hz]
  -- the transpose reads (b, g, q); there every operation is pointwise, rows and columns read as stated above
  unfold k0_pay1
  rw [tr_at]
  simp only [k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, shapeCast_self,
    addf, subf, mulf, divf, maximumf, minimumf, absf, broadcast, bcRow_at, bcCol_at,
    row0_at, row1_at, row2_at, row3_at, col0_at, col1_at, col2_at, col3_at]
  rfl

/-! ## The class piece: a batched product over the 91 classes

The product's left operand [4, 40, 91] is read at (image, target, class), its right operand [4, 900, 91] at (image, query,
class): the image is the batch axis, the class the contracted axis, and the result [4, 40, 900] is indexed (image, target,
query). One statement per operand axis. -/

/-- The left operand's image axis is the result's. -/
theorem lhs_0 (i : S4x40x900.Idx) (q : dot_S4x40x91_S4x900x91_S4x40x900_2_2_1_1_0_0.contr.Idx) :
    (dot_S4x40x91_S4x900x91_S4x40x900_2_2_1_1_0_0.lhsIdx i q 0).val = (i 0).val := by
  unfold DotDims.lhsIdx
  rw [dif_pos (show (0 : Fin S4x40x91.rank) ∈ dot_S4x40x91_S4x900x91_S4x40x900_2_2_1_1_0_0.lhsBatch by decide)]
  rfl
/-- The left operand's target axis is the result's second axis. -/
theorem lhs_1 (i : S4x40x900.Idx) (q : dot_S4x40x91_S4x900x91_S4x40x900_2_2_1_1_0_0.contr.Idx) :
    (dot_S4x40x91_S4x900x91_S4x40x900_2_2_1_1_0_0.lhsIdx i q 1).val = (i 1).val := by
  unfold DotDims.lhsIdx
  rw [dif_neg (show ¬(1 : Fin S4x40x91.rank) ∈ dot_S4x40x91_S4x900x91_S4x40x900_2_2_1_1_0_0.lhsBatch by decide),
    dif_pos (show (1 : Fin S4x40x91.rank) ∈ dot_S4x40x91_S4x900x91_S4x40x900_2_2_1_1_0_0.lhsNonContracting by decide)]
  rfl
/-- The left operand's class axis is the summation index. -/
theorem lhs_2 (i : S4x40x900.Idx) (q : dot_S4x40x91_S4x900x91_S4x40x900_2_2_1_1_0_0.contr.Idx) :
    (dot_S4x40x91_S4x900x91_S4x40x900_2_2_1_1_0_0.lhsIdx i q 2).val = (q ⟨0, by decide⟩).val :=
  dot_S4x40x91_S4x900x91_S4x40x900_2_2_1_1_0_0.lhsIdx_val_of_single rfl i q
/-- The right operand's image axis is the result's. -/
theorem rhs_0 (i : S4x40x900.Idx) (q : dot_S4x40x91_S4x900x91_S4x40x900_2_2_1_1_0_0.contr.Idx) :
    (dot_S4x40x91_S4x900x91_S4x40x900_2_2_1_1_0_0.rhsIdx i q 0).val = (i 0).val := by
  unfold DotDims.rhsIdx
  rw [dif_pos (show (0 : Fin S4x900x91.rank) ∈ dot_S4x40x91_S4x900x91_S4x40x900_2_2_1_1_0_0.rhsBatch by decide)]
  rfl
/-- The right operand's query axis is the result's third axis. -/
theorem rhs_1 (i : S4x40x900.Idx) (q : dot_S4x40x91_S4x900x91_S4x40x900_2_2_1_1_0_0.contr.Idx) :
    (dot_S4x40x91_S4x900x91_S4x40x900_2_2_1_1_0_0.rhsIdx i q 1).val = (i 2).val := by
  unfold DotDims.rhsIdx
  rw [dif_neg (show ¬(1 : Fin S4x900x91.rank) ∈ dot_S4x40x91_S4x900x91_S4x40x900_2_2_1_1_0_0.rhsBatch by decide),
    dif_pos (show (1 : Fin S4x900x91.rank) ∈ dot_S4x40x91_S4x900x91_S4x40x900_2_2_1_1_0_0.rhsNonContracting by decide)]
  rfl
/-- The right operand's class axis is the summation index. -/
theorem rhs_2 (i : S4x40x900.Idx) (q : dot_S4x40x91_S4x900x91_S4x40x900_2_2_1_1_0_0.contr.Idx) :
    (dot_S4x40x91_S4x900x91_S4x40x900_2_2_1_1_0_0.rhsIdx i q 2).val = (q ⟨0, by decide⟩).val :=
  dot_S4x40x91_S4x900x91_S4x40x900_2_2_1_1_0_0.rhsIdx_val_of_single rfl i q

/-- The one-hot table at (b, g, c): the class position c along the last axis, compared with the label of (b, g) repeated
    along that axis, widened and converted — the weight class c gets from that label. -/
theorem hot_at (P1 : Vec Ideal S4x40x1 .i32) (b : Fin 4) (g : Fin 40) (c : Fin 91) :
    (sitofp (F := Ideal) .f32 (extui 32 (cmpi .eq (iota .tc S4x40x91 32 [2] iota_S4x40x91_d2_w32)
      (broadcastTo S4x40x91 (shapeCast S4x40x1 P1 shapeCasts_S4x40x1_S4x40x1) broadcasts_S4x40x1_S4x40x91)) natLt_1_32)
        : FVec Ideal S4x40x91 .f32) (ix3 b g c) = hot (P1 (ix3 b g (0 : Fin 1))) c := by
  rw [shapeCast_self]
  show FloatOps.sitofp (F := Ideal) .f32 ((IntOp.cmpi .eq (iota .tc S4x40x91 32 [2] iota_S4x40x91_d2_w32 (ix3 b g c))
      (broadcastTo S4x40x91 P1 broadcasts_S4x40x1_S4x40x91 (ix3 b g c))).setWidth 32) = _
  rw [iota_single_apply, broadcastTo_apply P1 _ (ix3 b g c) (ix3 b g (0 : Fin 1)) (by
    intro a
    match a with
    | ⟨0, _⟩ => rfl
    | ⟨1, _⟩ => rfl
    | ⟨2, _⟩ => rfl)]
  rfl

/-- The class piece at the extended reals: 0 minus the sum over the classes of the label's weight times the probability. -/
theorem cls_block (P0 : Vec Ideal S4x900x91 .f32) (P1 : Vec Ideal S4x40x1 .i32) (b : Fin 4) (g : Fin 40) (q : Fin 900) :
    k0_pay2 (F := Ideal) P0 P1 (ix3 b g q) =
      Ideal.ofBits .f32 0x00000000#32 - ∑ c : Fin 91, hot (P1 (ix3 b g (0 : Fin 1))) c * Ideal.logistic (P0 (ix3 b q c)) := by
  unfold k0_pay2
  simp only [matmul]
  rw [subf_apply, broadcast_apply, Ideal.matmul_constant_zero_apply]
  refine congrArg (Ideal.ofBits .f32 0x00000000#32 - ·) ?_
  -- the sum over the one-axis contraction index is the sum over the 91 classes
  rw [← Equiv.sum_comp (ValueIdx.contrEquiv1 dot_S4x40x91_S4x900x91_S4x40x900_2_2_1_1_0_0 91 rfl rfl).symm]
  refine Finset.sum_congr rfl fun c _ => ?_
  have hk := ValueIdx.contrEquiv1_symm_val dot_S4x40x91_S4x900x91_S4x40x900_2_2_1_1_0_0 91 rfl rfl c
  have el : dot_S4x40x91_S4x900x91_S4x40x900_2_2_1_1_0_0.lhsIdx (ix3 b g q)
      ((ValueIdx.contrEquiv1 dot_S4x40x91_S4x900x91_S4x40x900_2_2_1_1_0_0 91 rfl rfl).symm c) = ix3 b g c :=
    funext fun a => Fin.ext (by
      match a with
      | ⟨0, _⟩ => exact lhs_0 _ _
      | ⟨1, _⟩ => exact lhs_1 _ _
      | ⟨2, _⟩ => exact (lhs_2 _ _).trans hk)
  have er : dot_S4x40x91_S4x900x91_S4x40x900_2_2_1_1_0_0.rhsIdx (ix3 b g q)
      ((ValueIdx.contrEquiv1 dot_S4x40x91_S4x900x91_S4x40x900_2_2_1_1_0_0 91 rfl rfl).symm c) = ix3 b q c :=
    funext fun a => Fin.ext (by
      match a with
      | ⟨0, _⟩ => exact rhs_0 _ _
      | ⟨1, _⟩ => exact rhs_1 _ _
      | ⟨2, _⟩ => exact (rhs_2 _ _).trans hk)
  rw [el, er, hot_at]
  rfl

end Cert.KernelIdeal.Point

end
-- ==== Proof.KArray.lean ====
/-
  From the grid's eight blocks to the whole array. The grid point t stages images 4t … 4t + 3 of every operand (all five
  index maps are (t, 0, 0)); the second operand is the predicted boxes transposed to [32, 4, 900] and the third the labels
  as a [32, 40, 1] column, both made by the host before the launch. So what point t writes back is block t of the cost
  array `G` of the four argument arrays, the eight blocks tile the [32, 900, 40] result, and the run ends with the
  result array at `G`.
-/
import proofs.«404723_j42305427865906_3_alg».proof.Proof.KPoint
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Point Idealize.ShloMosaic.ValueIdx Cert.MatchCost

variable (m : (ℓ : Loc nD τ sig) → Buf (Elt Ideal) ℓ) (ρ : Dev nD → PrngReg)

theorem hz3 : (![0, 0, 0] : Fin 3 → Nat) = fun _ => 0 := funext fun a => by fin_cases a <;> rfl

/-- Every window's block index at grid point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- Image 4t + b of the batch. -/
def img (t : Fin cfg0.N) (b : Fin 4) : Fin 32 := ⟨4 * t.val + b.val, by
  have ht : t.val < 8 := t.isLt
  have hb := b.isLt
  omega⟩

/-! ## The arrays the region finds -/

/-- The second operand's array is the predicted boxes with their last two axes exchanged. -/
theorem V_boxes (c : Dev nD) (b : Fin 32) (k : Fin 4) (q : Fin 900) :
    (V m c main_v0 : S32x4x900.Idx → EReal) (ix3 b k q) = (m ((c : Thread nD τ).loc main_arg1) : S32x900x4.Idx → EReal) (ix3 b q k) := by
  have e : (V m c main_v0 : S32x4x900.Idx → EReal)
      = transpose S32x4x900 [0, 2, 1] (m ((c : Thread nD τ).loc main_arg1) : S32x900x4.Idx → EReal) transposes_S32x900x4_S32x4x900_0_2_1 := by
    dsimp only [Gen.V, Gen.hostOps0]; after_results
  rw [e]
  refine transpose_apply _ _ _ _ _ fun a => ?_
  match a with
  | ⟨0, _⟩ => rfl
  | ⟨1, _⟩ => rfl
  | ⟨2, _⟩ => rfl

/-- The third operand's array is the labels as a column. -/
theorem V_labels (c : Dev nD) (b : Fin 32) (g : Fin 40) :
    (V m c main_v1 : S32x40x1.Idx → BitVec 32) (ix3 b g (0 : Fin 1)) = (m ((c : Thread nD τ).loc main_arg2) : S32x40.Idx → BitVec 32) (ix2 b g) := by
  have e : (V m c main_v1 : S32x40x1.Idx → BitVec 32)
      = broadcastInDim S32x40x1 ![0, 1] bcast_S32x40_S32x40x1_0_1 (m ((c : Thread nD τ).loc main_arg2) : S32x40.Idx → BitVec 32) := by
    dsimp only [Gen.V, Gen.hostOps0]; after_results
  rw [e]
  refine broadcastInDim_apply _ _ _ _ _ fun a => ?_
  match a with
  | ⟨0, _⟩ => rfl
  | ⟨1, _⟩ => rfl

/-! ## The four input blocks at a point, entry by entry -/

/-- The logits block, the boxes block, the labels block and the target-boxes block that point t stages. -/
abbrev lblk (c : Dev nD) (t : Fin cfg0.N) : Vec Ideal S4x900x91 .f32 := iblk m c 0 t
abbrev bblk (c : Dev nD) (t : Fin cfg0.N) : Vec Ideal S4x4x900 .f32 := iblk m c 1 t
abbrev kblk (c : Dev nD) (t : Fin cfg0.N) : Vec Ideal S4x40x1 .i32 := iblk m c 2 t
abbrev tblk (c : Dev nD) (t : Fin cfg0.N) : Vec Ideal S4x40x4 .f32 := iblk m c 3 t

theorem lblk_apply (c : Dev nD) (t : Fin cfg0.N) (b : Fin 4) (q : Fin 900) (k : Fin 91) :
    lblk m c t (ix3 b q k) = (m ((c : Thread nD τ).loc main_arg0) : S32x900x91.Idx → EReal) (ix3 (img t b) q k) := by
  obtain ⟨⟨e0, e1, e2⟩, -⟩ := idx_facts t
  unfold lblk iblk
  rw [View.read_apply]
  show V m c main_arg0 _ = _
  rw [V_main_arg0]
  congr 1
  funext a
  apply Fin.ext
  match a with
  | ⟨0, _⟩ => show win0_0.index t (0 : Fin 3) * 4 + 1 * b.val = 4 * t.val + b.val; omega
  | ⟨1, _⟩ => show win0_0.index t (1 : Fin 3) * 900 + 1 * q.val = q.val; omega
  | ⟨2, _⟩ => show win0_0.index t (2 : Fin 3) * 91 + 1 * k.val = k.val; omega

theorem bblk_apply (c : Dev nD) (t : Fin cfg0.N) (b : Fin 4) (k : Fin 4) (q : Fin 900) :
    bblk m c t (ix3 b k q) = (m ((c : Thread nD τ).loc main_arg1) : S32x900x4.Idx → EReal) (ix3 (img t b) q k) := by
  obtain ⟨-, ⟨e0, e1, e2⟩, -⟩ := idx_facts t
  rw [← V_boxes m c (img t b) k q]
  unfold bblk iblk
  rw [View.read_apply]
  show V m c main_v0 _ = _
  congr 1
  funext a
  apply Fin.ext
  match a with
  | ⟨0, _⟩ => show win0_1.index t (0 : Fin 3) * 4 + 1 * b.val = 4 * t.val + b.val; omega
  | ⟨1, _⟩ => show win0_1.index t (1 : Fin 3) * 4 + 1 * k.val = k.val; omega
  | ⟨2, _⟩ => show win0_1.index t (2 : Fin 3) * 900 + 1 * q.val = q.val; omega

theorem kblk_apply (c : Dev nD) (t : Fin cfg0.N) (b : Fin 4) (g : Fin 40) :
    kblk m c t (ix3 b g (0 : Fin 1)) = (m ((c : Thread nD τ).loc main_arg2) : S32x40.Idx → BitVec 32) (ix2 (img t b) g) := by
  obtain ⟨-, -, ⟨e0, e1, e2⟩, -⟩ := idx_facts t
  rw [← V_labels m c (img t b) g]
  unfold kblk iblk
  rw [View.read_apply]
  show V m c main_v1 _ = _
  congr 1
  funext a
  apply Fin.ext
  match a with
  | ⟨0, _⟩ => show win0_2.index t (0 : Fin 3) * 4 + 1 * b.val = 4 * t.val + b.val; omega
  | ⟨1, _⟩ => show win0_2.index t (1 : Fin 3) * 40 + 1 * g.val = g.val; omega
  | ⟨2, _⟩ => show win0_2.index t (2 : Fin 3) * 1 + 1 * 0 = 0; omega

theorem tblk_apply (c : Dev nD) (t : Fin cfg0.N) (b : Fin 4) (g : Fin 40) (k : Fin 4) :
    tblk m c t (ix3 b g k) = (m ((c : Thread nD τ).loc main_arg3) : S32x40x4.Idx → EReal) (ix3 (img t b) g k) := by
  obtain ⟨-, -, -, ⟨e0, e1, e2⟩, -⟩ := idx_facts t
  unfold tblk iblk
  rw [View.read_apply]
  show V m c main_arg3 _ = _
  rw [V_main_arg3]
  congr 1
  funext a
  apply Fin.ext
  match a with
  | ⟨0, _⟩ => show win0_3.index t (0 : Fin 3) * 4 + 1 * b.val = 4 * t.val + b.val; omega
  | ⟨1, _⟩ => show win0_3.index t (1 : Fin 3) * 40 + 1 * g.val = g.val; omega
  | ⟨2, _⟩ => show win0_3.index t (2 : Fin 3) * 4 + 1 * k.val = k.val; omega

/-! ## What a point writes back, the cover, the final array -/

/-- The cost array of the four argument arrays on core c. -/
abbrev Gm (c : Dev nD) : FVec Ideal S32x900x40 .f32 :=
  G (m ((c : Thread nD τ).loc main_arg0)) (m ((c : Thread nD τ).loc main_arg1)) (m ((c : Thread nD τ).loc main_arg2)) (m ((c : Thread nD τ).loc main_arg3))

/-- The output block's entry (b, q, g) at point t sits at (4t + b, q, g) of the array. -/
theorem emb_out (t : Fin cfg0.N) (b : Fin 4) (q : Fin 900) (g : Fin 40) :
    ((cfg0.win 4).blk t).view.emb (ix3 b q g) = (ix3 (img t b) q g : S32x900x40.Idx) := by
  obtain ⟨-, -, -, -, ⟨e0, e1, e2⟩⟩ := idx_facts t
  funext a
  apply Fin.ext
  match a with
  | ⟨0, _⟩ => show win0_4.index t (0 : Fin 3) * 4 + 1 * b.val = 4 * t.val + b.val; omega
  | ⟨1, _⟩ => show win0_4.index t (1 : Fin 3) * 900 + 1 * q.val = q.val; omega
  | ⟨2, _⟩ => show win0_4.index t (2 : Fin 3) * 40 + 1 * g.val = g.val; omega

/-- WHAT POINT t WRITES BACK is block t of the cost array. -/
theorem flushed_eq (c : Dev nD) (t : Fin cfg0.N) :
    (dats m 0 c).flushed 4 t = ((cfg0.win 4).blk t).view.read (Elt Ideal) (Gm m c) := by
  show (cfg0.win 4).cut (grid0.coords t) ((dats m 0 c).after 4 t) = _
  rw [after0_4]
  funext j
  obtain ⟨b, q, g, rfl⟩ : ∃ (b : Fin 4) (q : Fin 900) (g : Fin 40), j = ix3 b q g := ⟨j 0, j 1, j 2, eq_ix3 j⟩
  rw [View.read_apply, emb_out]
  show out0_4 (lblk m c t) (bblk m c t) (kblk m c t) (tblk m c t) (ix3 b q g) = _
  rw [out_cost, cls_block]
  simp only [lblk_apply, bblk_apply, kblk_apply, tblk_apply]
  rfl

/-- An index of the array is in point t's block iff each coordinate is in the block's range on its axis. -/
theorem mem_blk (t : Fin cfg0.N) (i : S32x900x40.Idx) :
    i ∈ ((cfg0.win 4).blk t).view.set ↔ ∀ a : Fin 3, win0_4.index t a * S4x900x40.size a ≤ (i a).val ∧ (i a).val < win0_4.index t a * S4x900x40.size a + S4x900x40.size a := by
  show i ∈ ((View.whole main_v2).slice (win0_4.rect t)).set ↔ _
  rw [View.set_slice_whole, Rect.mem_set_unit]
  exact Iff.rfl

/-- Every index of the result lies in the block of the point that stages its image: image i₀ is staged at point i₀ / 4. -/
theorem cover (i : S32x900x40.Idx) : ∃ t : Fin cfg0.N, (cfg0.win 4).flush t = true ∧ i ∈ ((cfg0.win 4).blk t).view.set := by
  have hi0 : (i 0).val < 32 := (i 0).isLt
  have hi1 : (i 1).val < 900 := (i 1).isLt
  have hi2 : (i 2).val < 40 := (i 2).isLt
  have hN : cfg0.N = 8 := N_0
  refine ⟨⟨(i 0).val / 4, by rw [hN]; omega⟩, flush0_4 _, ?_⟩
  obtain ⟨-, -, -, -, ⟨e0, e1, e2⟩⟩ := idx_facts ⟨(i 0).val / 4, by rw [hN]; omega⟩
  rw [mem_blk]
  intro a
  match a with
  | ⟨0, _⟩ => show win0_4.index _ (0 : Fin 3) * 4 ≤ (i 0).val ∧ (i 0).val < win0_4.index _ (0 : Fin 3) * 4 + 4; rw [e0]; show (i 0).val / 4 * 4 ≤ (i 0).val ∧ (i 0).val < (i 0).val / 4 * 4 + 4; omega
  | ⟨1, _⟩ => show win0_4.index _ (1 : Fin 3) * 900 ≤ (i 1).val ∧ (i 1).val < win0_4.index _ (1 : Fin 3) * 900 + 900; rw [e1]; omega
  | ⟨2, _⟩ => show win0_4.index _ (2 : Fin 3) * 40 ≤ (i 2).val ∧ (i 2).val < win0_4.index _ (2 : Fin 3) * 40 + 40; rw [e2]; omega

/-- THE RESULT ARRAY after the run is the cost array. -/
theorem final (c : Dev nD) : (dats m 0 c).arrAt 4 cfg0.N = Gm m c :=
  (dats m 0 c).arrAt_eq_of_cover 4 (Gm m c) (fun t _ => flushed_eq m c t) cover

/-- The kernel's run, read: the result at the cost array of the arguments, the arguments unchanged. -/
theorem run : θ_run defs (onTc (τ := τ) (main (F := Ideal))) ⟨m, fun _ => 0, ρ⟩ fun r => ∀ c : Dev nD,
      r.2.mem ((c : Thread nD τ).loc main_v2) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩)
    (run_main m ρ)

end Cert.KernelIdeal.Whole

end
-- ==== Proof.RefBoxA.lean ====
/-
  The reference's box arithmetic, first half: reshaped to [28800, 4] and [1280, 4], the boxes' L1 distance at a
  (row, column) pair, and the corner tables (x_lo, y_lo, x_hi, y_hi) built by stacking four columns.
-/
import proofs.«404723_j42305427865906_3_alg».proof.Proof.ReadP
import proofs.«404723_j42305427865906_3_alg».proof.Proof.MatchCost
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx Cert.MatchCost

/-! ## A four-column table built by stacking four one-column tables

Column k of the stacked table is the k-th one-column table, read at the same row. -/
/-- Column 0 of four one-column tables laid side by side is the first table. -/
theorem concat4_col0 {α : Type} {n : Nat} (y0 y1 y2 y3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate ⟨2, ![n, 4]⟩ 1 [⟨⟨2, ![n, 1]⟩, y0⟩, ⟨⟨2, ![n, 1]⟩, y1⟩, ⟨⟨2, ![n, 1]⟩, y2⟩, ⟨⟨2, ![n, 1]⟩, y3⟩] h (ix2 r (0 : Fin 4)) = y0 (ix2 r (0 : Fin 1)) := by
  refine concatenate_apply_piece (t := ⟨2, ![n, 4]⟩) (1 : Fin 2) [⟨⟨2, ![n, 1]⟩, y0⟩, ⟨⟨2, ![n, 1]⟩, y1⟩, ⟨⟨2, ![n, 1]⟩, y2⟩, ⟨⟨2, ![n, 1]⟩, y3⟩] h _ 0 (show (0 : Nat) < 4 by decide) _ y0 rfl rfl 0 (by rfl) (ix2 r (0 : Fin 1)) ?_ ?_
  · intro b hb; match b with | ⟨0, _⟩ => rfl | ⟨1, _⟩ => exact absurd rfl hb
  · rfl
/-- Column 1 of four one-column tables laid side by side is the second table. -/
theorem concat4_col1 {α : Type} {n : Nat} (y0 y1 y2 y3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate ⟨2, ![n, 4]⟩ 1 [⟨⟨2, ![n, 1]⟩, y0⟩, ⟨⟨2, ![n, 1]⟩, y1⟩, ⟨⟨2, ![n, 1]⟩, y2⟩, ⟨⟨2, ![n, 1]⟩, y3⟩] h (ix2 r (1 : Fin 4)) = y1 (ix2 r (0 : Fin 1)) := by
  refine concatenate_apply_piece (t := ⟨2, ![n, 4]⟩) (1 : Fin 2) [⟨⟨2, ![n, 1]⟩, y0⟩, ⟨⟨2, ![n, 1]⟩, y1⟩, ⟨⟨2, ![n, 1]⟩, y2⟩, ⟨⟨2, ![n, 1]⟩, y3⟩] h _ 1 (show (1 : Nat) < 4 by decide) _ y1 rfl rfl 1 (by rfl) (ix2 r (0 : Fin 1)) ?_ ?_
  · intro b hb; match b with | ⟨0, _⟩ => rfl | ⟨1, _⟩ => exact absurd rfl hb
  · rfl
/-- Column 2 of four one-column tables laid side by side is the third table. -/
theorem concat4_col2 {α : Type} {n : Nat} (y0 y1 y2 y3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate ⟨2, ![n, 4]⟩ 1 [⟨⟨2, ![n, 1]⟩, y0⟩, ⟨⟨2, ![n, 1]⟩, y1⟩, ⟨⟨2, ![n, 1]⟩, y2⟩, ⟨⟨2, ![n, 1]⟩, y3⟩] h (ix2 r (2 : Fin 4)) = y2 (ix2 r (0 : Fin 1)) := by
  refine concatenate_apply_piece (t := ⟨2, ![n, 4]⟩) (1 : Fin 2) [⟨⟨2, ![n, 1]⟩, y0⟩, ⟨⟨2, ![n, 1]⟩, y1⟩, ⟨⟨2, ![n, 1]⟩, y2⟩, ⟨⟨2, ![n, 1]⟩, y3⟩] h _ 2 (show (2 : Nat) < 4 by decide) _ y2 rfl rfl 2 (by rfl) (ix2 r (0 : Fin 1)) ?_ ?_
  · intro b hb; match b with | ⟨0, _⟩ => rfl | ⟨1, _⟩ => exact absurd rfl hb
  · rfl
/-- Column 3 of four one-column tables laid side by side is the fourth table. -/
theorem concat4_col3 {α : Type} {n : Nat} (y0 y1 y2 y3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (r : Fin n) :
    concatenate ⟨2, ![n, 4]⟩ 1 [⟨⟨2, ![n, 1]⟩, y0⟩, ⟨⟨2, ![n, 1]⟩, y1⟩, ⟨⟨2, ![n, 1]⟩, y2⟩, ⟨⟨2, ![n, 1]⟩, y3⟩] h (ix2 r (3 : Fin 4)) = y3 (ix2 r (0 : Fin 1)) := by
  refine concatenate_apply_piece (t := ⟨2, ![n, 4]⟩) (1 : Fin 2) [⟨⟨2, ![n, 1]⟩, y0⟩, ⟨⟨2, ![n, 1]⟩, y1⟩, ⟨⟨2, ![n, 1]⟩, y2⟩, ⟨⟨2, ![n, 1]⟩, y3⟩] h _ 3 (show (3 : Nat) < 4 by decide) _ y3 rfl rfl 3 (by rfl) (ix2 r (0 : Fin 1)) ?_ ?_
  · intro b hb; match b with | ⟨0, _⟩ => rfl | ⟨1, _⟩ => exact absurd rfl hb
  · rfl

/-! ## The flattened box arrays

Row b·900 + q, column k of the predicted boxes flattened to [28800, 4] is entry (b, q, k) of the boxes; likewise row
b'·40 + g of the target boxes flattened to [1280, 4]. -/

/-- The flattened predicted boxes at row b·900 + q, column k. -/
theorem v7_at (x1 : (⟨S32x900x4, .f32⟩ : BufTy).Contents (Elt Ideal)) (b : Fin 32) (q : Fin 900) (k : Fin 4) :
    val_main_v7 (F := Ideal) x1 (ix2 (rowQ b q) k) = x1 (ix3 b q k) := by
  rw [val_main_v7_apply]
  congr 1
  funext a
  refine Fin.ext ?_
  have hb := b.isLt; have hq := q.isLt; have hk := k.isLt
  match a with
  | ⟨0, _⟩ => show ((b.val * 900 + q.val) * 4 + k.val) / 3600 = b.val; omega
  | ⟨1, _⟩ => show ((b.val * 900 + q.val) * 4 + k.val) / 4 % 900 = q.val; omega
  | ⟨2, _⟩ => show ((b.val * 900 + q.val) * 4 + k.val) % 4 = k.val; omega

/-- The flattened target boxes at row b'·40 + g, column k. -/
theorem v9_at (x3 : (⟨S32x40x4, .f32⟩ : BufTy).Contents (Elt Ideal)) (b' : Fin 32) (g : Fin 40) (k : Fin 4) :
    val_main_v9 (F := Ideal) x3 (ix2 (rowG b' g) k) = x3 (ix3 b' g k) := by
  rw [val_main_v9_apply]
  congr 1
  funext a
  refine Fin.ext ?_
  have hb := b'.isLt; have hg := g.isLt; have hk := k.isLt
  match a with
  | ⟨0, _⟩ => show ((b'.val * 40 + g.val) * 4 + k.val) / 160 = b'.val; omega
  | ⟨1, _⟩ => show ((b'.val * 40 + g.val) * 4 + k.val) / 4 % 40 = g.val; omega
  | ⟨2, _⟩ => show ((b'.val * 40 + g.val) * 4 + k.val) % 4 = k.val; omega

/-! ## One column cut out of a flattened box array, as a vector over the rows -/

/-- Column 0 of the flattened predicted boxes, at row b·900 + q. -/
theorem v19_at (x1 : (⟨S32x900x4, .f32⟩ : BufTy).Contents (Elt Ideal)) (b : Fin 32) (q : Fin 900) :
    val_main_v19 (F := Ideal) x1 (ix1 (rowQ b q)) = x1 (ix3 b q (0 : Fin 4)) := by
  rw [val_main_v19_apply, val_main_v18_apply]
  refine Eq.trans (congrArg (val_main_v7 (F := Ideal) x1) ?_) (v7_at x1 b q (0 : Fin 4))
  funext a
  refine Fin.ext ?_
  match a with
  | ⟨0, _⟩ => show (b.val * 900 + q.val) / 1 = b.val * 900 + q.val; omega
  | ⟨1, _⟩ => rfl

/-- Column 1 of the flattened predicted boxes, at row b·900 + q. -/
theorem v31_at (x1 : (⟨S32x900x4, .f32⟩ : BufTy).Contents (Elt Ideal)) (b : Fin 32) (q : Fin 900) :
    val_main_v31 (F := Ideal) x1 (ix1 (rowQ b q)) = x1 (ix3 b q (1 : Fin 4)) := by
  rw [val_main_v31_apply, val_main_v30_apply]
  refine Eq.trans (congrArg (val_main_v7 (F := Ideal) x1) ?_) (v7_at x1 b q (1 : Fin 4))
  funext a
  refine Fin.ext ?_
  match a with
  | ⟨0, _⟩ => show (b.val * 900 + q.val) / 1 = b.val * 900 + q.val; omega
  | ⟨1, _⟩ => rfl

/-- Column 2 of the flattened predicted boxes, at row b·900 + q. -/
theorem v42_at (x1 : (⟨S32x900x4, .f32⟩ : BufTy).Contents (Elt Ideal)) (b : Fin 32) (q : Fin 900) :
    val_main_v42 (F := Ideal) x1 (ix1 (rowQ b q)) = x1 (ix3 b q (2 : Fin 4)) := by
  rw [val_main_v42_apply, val_main_v41_apply]
  refine Eq.trans (congrArg (val_main_v7 (F := Ideal) x1) ?_) (v7_at x1 b q (2 : Fin 4))
  funext a
  refine Fin.ext ?_
  match a with
  | ⟨0, _⟩ => show (b.val * 900 + q.val) / 1 = b.val * 900 + q.val; omega
  | ⟨1, _⟩ => rfl

/-- Column 3 of the flattened predicted boxes, at row b·900 + q. -/
theorem v53_at (x1 : (⟨S32x900x4, .f32⟩ : BufTy).Contents (Elt Ideal)) (b : Fin 32) (q : Fin 900) :
    val_main_v53 (F := Ideal) x1 (ix1 (rowQ b q)) = x1 (ix3 b q (3 : Fin 4)) := by
  rw [val_main_v53_apply, val_main_v52_apply]
  refine Eq.trans (congrArg (val_main_v7 (F := Ideal) x1) ?_) (v7_at x1 b q (3 : Fin 4))
  funext a
  refine Fin.ext ?_
  match a with
  | ⟨0, _⟩ => show (b.val * 900 + q.val) / 1 = b.val * 900 + q.val; omega
  | ⟨1, _⟩ => rfl

/-- Column 0 of the flattened predicted boxes, at row b·900 + q. -/
theorem v64_at (x1 : (⟨S32x900x4, .f32⟩ : BufTy).Contents (Elt Ideal)) (b : Fin 32) (q : Fin 900) :
    val_main_v64 (F := Ideal) x1 (ix1 (rowQ b q)) = x1 (ix3 b q (0 : Fin 4)) := by
  rw [val_main_v64_apply, val_main_v63_apply]
  refine Eq.trans (congrArg (val_main_v7 (F := Ideal) x1) ?_) (v7_at x1 b q (0 : Fin 4))
  funext a
  refine Fin.ext ?_
  match a with
  | ⟨0, _⟩ => show (b.val * 900 + q.val) / 1 = b.val * 900 + q.val; omega
  | ⟨1, _⟩ => rfl

/-- Column 1 of the flattened predicted boxes, at row b·900 + q. -/
theorem v66_at (x1 : (⟨S32x900x4, .f32⟩ : BufTy).Contents (Elt Ideal)) (b : Fin 32) (q : Fin 900) :
    val_main_v66 (F := Ideal) x1 (ix1 (rowQ b q)) = x1 (ix3 b q (1 : Fin 4)) := by
  rw [val_main_v66_apply, val_main_v65_apply]
  refine Eq.trans (congrArg (val_main_v7 (F := Ideal) x1) ?_) (v7_at x1 b q (1 : Fin 4))
  funext a
  refine Fin.ext ?_
  match a with
  | ⟨0, _⟩ => show (b.val * 900 + q.val) / 1 = b.val * 900 + q.val; omega
  | ⟨1, _⟩ => rfl

/-- Column 2 of the flattened predicted boxes, at row b·900 + q. -/
theorem v68_at (x1 : (⟨S32x900x4, .f32⟩ : BufTy).Contents (Elt Ideal)) (b : Fin 32) (q : Fin 900) :
    val_main_v68 (F := Ideal) x1 (ix1 (rowQ b q)) = x1 (ix3 b q (2 : Fin 4)) := by
  rw [val_main_v68_apply, val_main_v67_apply]
  refine Eq.trans (congrArg (val_main_v7 (F := Ideal) x1) ?_) (v7_at x1 b q (2 : Fin 4))
  funext a
  refine Fin.ext ?_
  match a with
  | ⟨0, _⟩ => show (b.val * 900 + q.val) / 1 = b.val * 900 + q.val; omega
  | ⟨1, _⟩ => rfl

/-- Column 3 of the flattened predicted boxes, at row b·900 + q. -/
theorem v70_at (x1 : (⟨S32x900x4, .f32⟩ : BufTy).Contents (Elt Ideal)) (b : Fin 32) (q : Fin 900) :
    val_main_v70 (F := Ideal) x1 (ix1 (rowQ b q)) = x1 (ix3 b q (3 : Fin 4)) := by
  rw [val_main_v70_apply, val_main_v69_apply]
  refine Eq.trans (congrArg (val_main_v7 (F := Ideal) x1) ?_) (v7_at x1 b q (3 : Fin 4))
  funext a
  refine Fin.ext ?_
  match a with
  | ⟨0, _⟩ => show (b.val * 900 + q.val) / 1 = b.val * 900 + q.val; omega
  | ⟨1, _⟩ => rfl

/-- Column 0 of the flattened target boxes, at row b'·40 + g. -/
theorem v22_at (x3 : (⟨S32x40x4, .f32⟩ : BufTy).Contents (Elt Ideal)) (b' : Fin 32) (g : Fin 40) :
    val_main_v22 (F := Ideal) x3 (ix1 (rowG b' g)) = x3 (ix3 b' g (0 : Fin 4)) := by
  rw [val_main_v22_apply, val_main_v21_apply]
  refine Eq.trans (congrArg (val_main_v9 (F := Ideal) x3) ?_) (v9_at x3 b' g (0 : Fin 4))
  funext a
  refine Fin.ext ?_
  match a with
  | ⟨0, _⟩ => show (b'.val * 40 + g.val) / 1 = b'.val * 40 + g.val; omega
  | ⟨1, _⟩ => rfl

/-- Column 1 of the flattened target boxes, at row b'·40 + g. -/
theorem v34_at (x3 : (⟨S32x40x4, .f32⟩ : BufTy).Contents (Elt Ideal)) (b' : Fin 32) (g : Fin 40) :
    val_main_v34 (F := Ideal) x3 (ix1 (rowG b' g)) = x3 (ix3 b' g (1 : Fin 4)) := by
  rw [val_main_v34_apply, val_main_v33_apply]
  refine Eq.trans (congrArg (val_main_v9 (F := Ideal) x3) ?_) (v9_at x3 b' g (1 : Fin 4))
  funext a
  refine Fin.ext ?_
  match a with
  | ⟨0, _⟩ => show (b'.val * 40 + g.val) / 1 = b'.val * 40 + g.val; omega
  | ⟨1, _⟩ => rfl

/-- Column 2 of the flattened target boxes, at row b'·40 + g. -/
theorem v45_at (x3 : (⟨S32x40x4, .f32⟩ : BufTy).Contents (Elt Ideal)) (b' : Fin 32) (g : Fin 40) :
    val_main_v45 (F := Ideal) x3 (ix1 (rowG b' g)) = x3 (ix3 b' g (2 : Fin 4)) := by
  rw [val_main_v45_apply, val_main_v44_apply]
  refine Eq.trans (congrArg (val_main_v9 (F := Ideal) x3) ?_) (v9_at x3 b' g (2 : Fin 4))
  funext a
  refine Fin.ext ?_
  match a with
  | ⟨0, _⟩ => show (b'.val * 40 + g.val) / 1 = b'.val * 40 + g.val; omega
  | ⟨1, _⟩ => rfl

/-- Column 3 of the flattened target boxes, at row b'·40 + g. -/
theorem v56_at (x3 : (⟨S32x40x4, .f32⟩ : BufTy).Contents (Elt Ideal)) (b' : Fin 32) (g : Fin 40) :
    val_main_v56 (F := Ideal) x3 (ix1 (rowG b' g)) = x3 (ix3 b' g (3 : Fin 4)) := by
  rw [val_main_v56_apply, val_main_v55_apply]
  refine Eq.trans (congrArg (val_main_v9 (F := Ideal) x3) ?_) (v9_at x3 b' g (3 : Fin 4))
  funext a
  refine Fin.ext ?_
  match a with
  | ⟨0, _⟩ => show (b'.val * 40 + g.val) / 1 = b'.val * 40 + g.val; omega
  | ⟨1, _⟩ => rfl

/-- Column 0 of the flattened target boxes, at row b'·40 + g. -/
theorem v89_at (x3 : (⟨S32x40x4, .f32⟩ : BufTy).Contents (Elt Ideal)) (b' : Fin 32) (g : Fin 40) :
    val_main_v89 (F := Ideal) x3 (ix1 (rowG b' g)) = x3 (ix3 b' g (0 : Fin 4)) := by
  rw [val_main_v89_apply, val_main_v88_apply]
  refine Eq.trans (congrArg (val_main_v9 (F := Ideal) x3) ?_) (v9_at x3 b' g (0 : Fin 4))
  funext a
  refine Fin.ext ?_
  match a with
  | ⟨0, _⟩ => show (b'.val * 40 + g.val) / 1 = b'.val * 40 + g.val; omega
  | ⟨1, _⟩ => rfl

/-- Column 1 of the flattened target boxes, at row b'·40 + g. -/
theorem v91_at (x3 : (⟨S32x40x4, .f32⟩ : BufTy).Contents (Elt Ideal)) (b' : Fin 32) (g : Fin 40) :
    val_main_v91 (F := Ideal) x3 (ix1 (rowG b' g)) = x3 (ix3 b' g (1 : Fin 4)) := by
  rw [val_main_v91_apply, val_main_v90_apply]
  refine Eq.trans (congrArg (val_main_v9 (F := Ideal) x3) ?_) (v9_at x3 b' g (1 : Fin 4))
  funext a
  refine Fin.ext ?_
  match a with
  | ⟨0, _⟩ => show (b'.val * 40 + g.val) / 1 = b'.val * 40 + g.val; omega
  | ⟨1, _⟩ => rfl

/-- Column 2 of the flattened target boxes, at row b'·40 + g. -/
theorem v93_at (x3 : (⟨S32x40x4, .f32⟩ : BufTy).Contents (Elt Ideal)) (b' : Fin 32) (g : Fin 40) :
    val_main_v93 (F := Ideal) x3 (ix1 (rowG b' g)) = x3 (ix3 b' g (2 : Fin 4)) := by
  rw [val_main_v93_apply, val_main_v92_apply]
  refine Eq.trans (congrArg (val_main_v9 (F := Ideal) x3) ?_) (v9_at x3 b' g (2 : Fin 4))
  funext a
  refine Fin.ext ?_
  match a with
  | ⟨0, _⟩ => show (b'.val * 40 + g.val) / 1 = b'.val * 40 + g.val; omega
  | ⟨1, _⟩ => rfl

/-- Column 3 of the flattened target boxes, at row b'·40 + g. -/
theorem v95_at (x3 : (⟨S32x40x4, .f32⟩ : BufTy).Contents (Elt Ideal)) (b' : Fin 32) (g : Fin 40) :
    val_main_v95 (F := Ideal) x3 (ix1 (rowG b' g)) = x3 (ix3 b' g (3 : Fin 4)) := by
  rw [val_main_v95_apply, val_main_v94_apply]
  refine Eq.trans (congrArg (val_main_v9 (F := Ideal) x3) ?_) (v9_at x3 b' g (3 : Fin 4))
  funext a
  refine Fin.ext ?_
  match a with
  | ⟨0, _⟩ => show (b'.val * 40 + g.val) / 1 = b'.val * 40 + g.val; omega
  | ⟨1, _⟩ => rfl

/-! ## The corners c − ½·s and c + ½·s, as vectors over the rows -/

/-- The lower corner on axis 0 of the predicted box at row b·900 + q. -/
theorem v73_at (x1 : (⟨S32x900x4, .f32⟩ : BufTy).Contents (Elt Ideal)) (b : Fin 32) (q : Fin 900) :
    val_main_v73 (F := Ideal) x1 (ix1 (rowQ b q)) = lo (F := Ideal) (x1 (ix3 b q (0 : Fin 4))) (x1 (ix3 b q (2 : Fin 4))) := by
  rw [val_main_v73_apply, val_main_v72_apply, val_main_v71_apply, val_main_cst_3_apply, v64_at, v68_at]
  rfl

/-- The lower corner on axis 1 of the predicted box at row b·900 + q. -/
theorem v76_at (x1 : (⟨S32x900x4, .f32⟩ : BufTy).Contents (Elt Ideal)) (b : Fin 32) (q : Fin 900) :
    val_main_v76 (F := Ideal) x1 (ix1 (rowQ b q)) = lo (F := Ideal) (x1 (ix3 b q (1 : Fin 4))) (x1 (ix3 b q (3 : Fin 4))) := by
  rw [val_main_v76_apply, val_main_v75_apply, val_main_v74_apply, val_main_cst_4_apply, v66_at, v70_at]
  rfl

/-- The upper corner on axis 0 of the predicted box at row b·900 + q. -/
theorem v79_at (x1 : (⟨S32x900x4, .f32⟩ : BufTy).Contents (Elt Ideal)) (b : Fin 32) (q : Fin 900) :
    val_main_v79 (F := Ideal) x1 (ix1 (rowQ b q)) = hi (F := Ideal) (x1 (ix3 b q (0 : Fin 4))) (x1 (ix3 b q (2 : Fin 4))) := by
  rw [val_main_v79_apply, val_main_v78_apply, val_main_v77_apply, val_main_cst_5_apply, v64_at, v68_at]
  rfl

/-- The upper corner on axis 1 of the predicted box at row b·900 + q. -/
theorem v82_at (x1 : (⟨S32x900x4, .f32⟩ : BufTy).Contents (Elt Ideal)) (b : Fin 32) (q : Fin 900) :
    val_main_v82 (F := Ideal) x1 (ix1 (rowQ b q)) = hi (F := Ideal) (x1 (ix3 b q (1 : Fin 4))) (x1 (ix3 b q (3 : Fin 4))) := by
  rw [val_main_v82_apply, val_main_v81_apply, val_main_v80_apply, val_main_cst_6_apply, v66_at, v70_at]
  rfl

/-- The lower corner on axis 0 of the target box at row b'·40 + g. -/
theorem v98_at (x3 : (⟨S32x40x4, .f32⟩ : BufTy).Contents (Elt Ideal)) (b' : Fin 32) (g : Fin 40) :
    val_main_v98 (F := Ideal) x3 (ix1 (rowG b' g)) = lo (F := Ideal) (x3 (ix3 b' g (0 : Fin 4))) (x3 (ix3 b' g (2 : Fin 4))) := by
  rw [val_main_v98_apply, val_main_v97_apply, val_main_v96_apply, val_main_cst_7_apply, v89_at, v93_at]
  rfl

/-- The lower corner on axis 1 of the target box at row b'·40 + g. -/
theorem v101_at (x3 : (⟨S32x40x4, .f32⟩ : BufTy).Contents (Elt Ideal)) (b' : Fin 32) (g : Fin 40) :
    val_main_v101 (F := Ideal) x3 (ix1 (rowG b' g)) = lo (F := Ideal) (x3 (ix3 b' g (1 : Fin 4))) (x3 (ix3 b' g (3 : Fin 4))) := by
  rw [val_main_v101_apply, val_main_v100_apply, val_main_v99_apply, val_main_cst_8_apply, v91_at, v95_at]
  rfl

/-- The upper corner on axis 0 of the target box at row b'·40 + g. -/
theorem v104_at (x3 : (⟨S32x40x4, .f32⟩ : BufTy).Contents (Elt Ideal)) (b' : Fin 32) (g : Fin 40) :
    val_main_v104 (F := Ideal) x3 (ix1 (rowG b' g)) = hi (F := Ideal) (x3 (ix3 b' g (0 : Fin 4))) (x3 (ix3 b' g (2 : Fin 4))) := by
  rw [val_main_v104_apply, val_main_v103_apply, val_main_v102_apply, val_main_cst_9_apply, v89_at, v93_at]
  rfl

/-- The upper corner on axis 1 of the target box at row b'·40 + g. -/
theorem v107_at (x3 : (⟨S32x40x4, .f32⟩ : BufTy).Contents (Elt Ideal)) (b' : Fin 32) (g : Fin 40) :
    val_main_v107 (F := Ideal) x3 (ix1 (rowG b' g)) = hi (F := Ideal) (x3 (ix3 b' g (1 : Fin 4))) (x3 (ix3 b' g (3 : Fin 4))) := by
  rw [val_main_v107_apply, val_main_v106_apply, val_main_v105_apply, val_main_cst_10_apply, v91_at, v95_at]
  rfl

/-! ## The same corners as one-column tables -/

theorem v83_at (x1 : (⟨S32x900x4, .f32⟩ : BufTy).Contents (Elt Ideal)) (b : Fin 32) (q : Fin 900) :
    val_main_v83 (F := Ideal) x1 (ix2 (rowQ b q) (0 : Fin 1)) = lo (F := Ideal) (x1 (ix3 b q (0 : Fin 4))) (x1 (ix3 b q (2 : Fin 4))) := by
  rw [val_main_v83_apply]
  refine Eq.trans (congrArg (val_main_v73 (F := Ideal) x1) ?_) (v73_at x1 b q)
  funext a
  match a with
  | ⟨0, _⟩ => rfl

theorem v84_at (x1 : (⟨S32x900x4, .f32⟩ : BufTy).Contents (Elt Ideal)) (b : Fin 32) (q : Fin 900) :
    val_main_v84 (F := Ideal) x1 (ix2 (rowQ b q) (0 : Fin 1)) = lo (F := Ideal) (x1 (ix3 b q (1 : Fin 4))) (x1 (ix3 b q (3 : Fin 4))) := by
  rw [val_main_v84_apply]
  refine Eq.trans (congrArg (val_main_v76 (F := Ideal) x1) ?_) (v76_at x1 b q)
  funext a
  match a with
  | ⟨0, _⟩ => rfl

theorem v85_at (x1 : (⟨S32x900x4, .f32⟩ : BufTy).Contents (Elt Ideal)) (b : Fin 32) (q : Fin 900) :
    val_main_v85 (F := Ideal) x1 (ix2 (rowQ b q) (0 : Fin 1)) = hi (F := Ideal) (x1 (ix3 b q (0 : Fin 4))) (x1 (ix3 b q (2 : Fin 4))) := by
  rw [val_main_v85_apply]
  refine Eq.trans (congrArg (val_main_v79 (F := Ideal) x1) ?_) (v79_at x1 b q)
  funext a
  match a with
  | ⟨0, _⟩ => rfl

theorem v86_at (x1 : (⟨S32x900x4, .f32⟩ : BufTy).Contents (Elt Ideal)) (b : Fin 32) (q : Fin 900) :
    val_main_v86 (F := Ideal) x1 (ix2 (rowQ b q) (0 : Fin 1)) = hi (F := Ideal) (x1 (ix3 b q (1 : Fin 4))) (x1 (ix3 b q (3 : Fin 4))) := by
  rw [val_main_v86_apply]
  refine Eq.trans (congrArg (val_main_v82 (F := Ideal) x1) ?_) (v82_at x1 b q)
  funext a
  match a with
  | ⟨0, _⟩ => rfl

theorem v108_at (x3 : (⟨S32x40x4, .f32⟩ : BufTy).Contents (Elt Ideal)) (b' : Fin 32) (g : Fin 40) :
    val_main_v108 (F := Ideal) x3 (ix2 (rowG b' g) (0 : Fin 1)) = lo (F := Ideal) (x3 (ix3 b' g (0 : Fin 4))) (x3 (ix3 b' g (2 : Fin 4))) := by
  rw [val_main_v108_apply]
  refine Eq.trans (congrArg (val_main_v98 (F := Ideal) x3) ?_) (v98_at x3 b' g)
  funext a
  match a with
  | ⟨0, _⟩ => rfl

theorem v109_at (x3 : (⟨S32x40x4, .f32⟩ : BufTy).Contents (Elt Ideal)) (b' : Fin 32) (g : Fin 40) :
    val_main_v109 (F := Ideal) x3 (ix2 (rowG b' g) (0 : Fin 1)) = lo (F := Ideal) (x3 (ix3 b' g (1 : Fin 4))) (x3 (ix3 b' g (3 : Fin 4))) := by
  rw [val_main_v109_apply]
  refine Eq.trans (congrArg (val_main_v101 (F := Ideal) x3) ?_) (v101_at x3 b' g)
  funext a
  match a with
  | ⟨0, _⟩ => rfl

theorem v110_at (x3 : (⟨S32x40x4, .f32⟩ : BufTy).Contents (Elt Ideal)) (b' : Fin 32) (g : Fin 40) :
    val_main_v110 (F := Ideal) x3 (ix2 (rowG b' g) (0 : Fin 1)) = hi (F := Ideal) (x3 (ix3 b' g (0 : Fin 4))) (x3 (ix3 b' g (2 : Fin 4))) := by
  rw [val_main_v110_apply]
  refine Eq.trans (congrArg (val_main_v104 (F := Ideal) x3) ?_) (v104_at x3 b' g)
  funext a
  match a with
  | ⟨0, _⟩ => rfl

theorem v111_at (x3 : (⟨S32x40x4, .f32⟩ : BufTy).Contents (Elt Ideal)) (b' : Fin 32) (g : Fin 40) :
    val_main_v111 (F := Ideal) x3 (ix2 (rowG b' g) (0 : Fin 1)) = hi (F := Ideal) (x3 (ix3 b' g (1 : Fin 4))) (x3 (ix3 b' g (3 : Fin 4))) := by
  rw [val_main_v111_apply]
  refine Eq.trans (congrArg (val_main_v107 (F := Ideal) x3) ?_) (v107_at x3 b' g)
  funext a
  match a with
  | ⟨0, _⟩ => rfl

/-! ## The L1 distance: one |p_k − t_k| term per column, on the [28800, 1280] grid of (row, column) pairs -/

/-- Column 0 of the predicted boxes spread along the grid's rows: constant in the grid's column. -/
theorem v24_at (x1 : (⟨S32x900x4, .f32⟩ : BufTy).Contents (Elt Ideal)) (b : Fin 32) (q : Fin 900) (c : Fin 1280) :
    val_main_v24 (F := Ideal) x1 (ix2 (rowQ b q) c) = x1 (ix3 b q (0 : Fin 4)) := by
  rw [val_main_v24_apply, val_main_v20_apply]
  refine Eq.trans (congrArg (val_main_v19 (F := Ideal) x1) ?_) (v19_at x1 b q)
  funext a
  match a with
  | ⟨0, _⟩ => rfl

/-- Column 0 of the target boxes spread along the grid's columns: constant in the grid's row. -/
theorem v25_at (x3 : (⟨S32x40x4, .f32⟩ : BufTy).Contents (Elt Ideal)) (r : Fin 28800) (b' : Fin 32) (g : Fin 40) :
    val_main_v25 (F := Ideal) x3 (ix2 r (rowG b' g)) = x3 (ix3 b' g (0 : Fin 4)) := by
  rw [val_main_v25_apply, val_main_v23_apply]
  refine Eq.trans (congrArg (val_main_v22 (F := Ideal) x3) ?_) (v22_at x3 b' g)
  funext a
  match a with
  | ⟨0, _⟩ => rfl

/-- The term |p_0 − t_0| at a (row, column) pair. -/
theorem v27_at (x1 : (⟨S32x900x4, .f32⟩ : BufTy).Contents (Elt Ideal)) (x3 : (⟨S32x40x4, .f32⟩ : BufTy).Contents (Elt Ideal)) (b : Fin 32) (q : Fin 900) (b' : Fin 32) (g : Fin 40) :
    val_main_v27 (F := Ideal) x1 x3 (ix2 (rowQ b q) (rowG b' g))
      = (FloatOps.absf (FloatOps.subf (x1 (ix3 b q (0 : Fin 4))) (x3 (ix3 b' g (0 : Fin 4)))) : Ideal .f32) := by
  rw [val_main_v27_apply, val_main_v26_apply, v24_at, v25_at]
  rfl

/-- Column 1 of the predicted boxes spread along the grid's rows: constant in the grid's column. -/
theorem v36_at (x1 : (⟨S32x900x4, .f32⟩ : BufTy).Contents (Elt Ideal)) (b : Fin 32) (q : Fin 900) (c : Fin 1280) :
    val_main_v36 (F := Ideal) x1 (ix2 (rowQ b q) c) = x1 (ix3 b q (1 : Fin 4)) := by
  rw [val_main_v36_apply, val_main_v32_apply]
  refine Eq.trans (congrArg (val_main_v31 (F := Ideal) x1) ?_) (v31_at x1 b q)
  funext a
  match a with
  | ⟨0, _⟩ => rfl

/-- Column 1 of the target boxes spread along the grid's columns: constant in the grid's row. -/
theorem v37_at (x3 : (⟨S32x40x4, .f32⟩ : BufTy).Contents (Elt Ideal)) (r : Fin 28800) (b' : Fin 32) (g : Fin 40) :
    val_main_v37 (F := Ideal) x3 (ix2 r (rowG b' g)) = x3 (ix3 b' g (1 : Fin 4)) := by
  rw [val_main_v37_apply, val_main_v35_apply]
  refine Eq.trans (congrArg (val_main_v34 (F := Ideal) x3) ?_) (v34_at x3 b' g)
  funext a
  match a with
  | ⟨0, _⟩ => rfl

/-- The term |p_1 − t_1| at a (row, column) pair. -/
theorem v39_at (x1 : (⟨S32x900x4, .f32⟩ : BufTy).Contents (Elt Ideal)) (x3 : (⟨S32x40x4, .f32⟩ : BufTy).Contents (Elt Ideal)) (b : Fin 32) (q : Fin 900) (b' : Fin 32) (g : Fin 40) :
    val_main_v39 (F := Ideal) x1 x3 (ix2 (rowQ b q) (rowG b' g))
      = (FloatOps.absf (FloatOps.subf (x1 (ix3 b q (1 : Fin 4))) (x3 (ix3 b' g (1 : Fin 4)))) : Ideal .f32) := by
  rw [val_main_v39_apply, val_main_v38_apply, v36_at, v37_at]
  rfl

/-- Column 2 of the predicted boxes spread along the grid's rows: constant in the grid's column. -/
theorem v47_at (x1 : (⟨S32x900x4, .f32⟩ : BufTy).Contents (Elt Ideal)) (b : Fin 32) (q : Fin 900) (c : Fin 1280) :
    val_main_v47 (F := Ideal) x1 (ix2 (rowQ b q) c) = x1 (ix3 b q (2 : Fin 4)) := by
  rw [val_main_v47_apply, val_main_v43_apply]
  refine Eq.trans (congrArg (val_main_v42 (F := Ideal) x1) ?_) (v42_at x1 b q)
  funext a
  match a with
  | ⟨0, _⟩ => rfl

/-- Column 2 of the target boxes spread along the grid's columns: constant in the grid's row. -/
theorem v48_at (x3 : (⟨S32x40x4, .f32⟩ : BufTy).Contents (Elt Ideal)) (r : Fin 28800) (b' : Fin 32) (g : Fin 40) :
    val_main_v48 (F := Ideal) x3 (ix2 r (rowG b' g)) = x3 (ix3 b' g (2 : Fin 4)) := by
  rw [val_main_v48_apply, val_main_v46_apply]
  refine Eq.trans (congrArg (val_main_v45 (F := Ideal) x3) ?_) (v45_at x3 b' g)
  funext a
  match a with
  | ⟨0, _⟩ => rfl

/-- The term |p_2 − t_2| at a (row, column) pair. -/
theorem v50_at (x1 : (⟨S32x900x4, .f32⟩ : BufTy).Contents (Elt Ideal)) (x3 : (⟨S32x40x4, .f32⟩ : BufTy).Contents (Elt Ideal)) (b : Fin 32) (q : Fin 900) (b' : Fin 32) (g : Fin 40) :
    val_main_v50 (F := Ideal) x1 x3 (ix2 (rowQ b q) (rowG b' g))
      = (FloatOps.absf (FloatOps.subf (x1 (ix3 b q (2 : Fin 4))) (x3 (ix3 b' g (2 : Fin 4)))) : Ideal .f32) := by
  rw [val_main_v50_apply, val_main_v49_apply, v47_at, v48_at]
  rfl

/-- Column 3 of the predicted boxes spread along the grid's rows: constant in the grid's column. -/
theorem v58_at (x1 : (⟨S32x900x4, .f32⟩ : BufTy).Contents (Elt Ideal)) (b : Fin 32) (q : Fin 900) (c : Fin 1280) :
    val_main_v58 (F := Ideal) x1 (ix2 (rowQ b q) c) = x1 (ix3 b q (3 : Fin 4)) := by
  rw [val_main_v58_apply, val_main_v54_apply]
  refine Eq.trans (congrArg (val_main_v53 (F := Ideal) x1) ?_) (v53_at x1 b q)
  funext a
  match a with
  | ⟨0, _⟩ => rfl

/-- Column 3 of the target boxes spread along the grid's columns: constant in the grid's row. -/
theorem v59_at (x3 : (⟨S32x40x4, .f32⟩ : BufTy).Contents (Elt Ideal)) (r : Fin 28800) (b' : Fin 32) (g : Fin 40) :
    val_main_v59 (F := Ideal) x3 (ix2 r (rowG b' g)) = x3 (ix3 b' g (3 : Fin 4)) := by
  rw [val_main_v59_apply, val_main_v57_apply]
  refine Eq.trans (congrArg (val_main_v56 (F := Ideal) x3) ?_) (v56_at x3 b' g)
  funext a
  match a with
  | ⟨0, _⟩ => rfl

/-- The term |p_3 − t_3| at a (row, column) pair. -/
theorem v61_at (x1 : (⟨S32x900x4, .f32⟩ : BufTy).Contents (Elt Ideal)) (x3 : (⟨S32x40x4, .f32⟩ : BufTy).Contents (Elt Ideal)) (b : Fin 32) (q : Fin 900) (b' : Fin 32) (g : Fin 40) :
    val_main_v61 (F := Ideal) x1 x3 (ix2 (rowQ b q) (rowG b' g))
      = (FloatOps.absf (FloatOps.subf (x1 (ix3 b q (3 : Fin 4))) (x3 (ix3 b' g (3 : Fin 4)))) : Ideal .f32) := by
  rw [val_main_v61_apply, val_main_v60_apply, v58_at, v59_at]
  rfl

/-- The sum's first step adds the first term to a zero, which leaves the term. -/
theorem v29_at (x1 : (⟨S32x900x4, .f32⟩ : BufTy).Contents (Elt Ideal)) (x3 : (⟨S32x40x4, .f32⟩ : BufTy).Contents (Elt Ideal)) (b : Fin 32) (q : Fin 900) (b' : Fin 32) (g : Fin 40) :
    val_main_v29 (F := Ideal) x1 x3 (ix2 (rowQ b q) (rowG b' g))
      = (FloatOps.absf (FloatOps.subf (x1 (ix3 b q (0 : Fin 4))) (x3 (ix3 b' g (0 : Fin 4)))) : Ideal .f32) := by
  rw [val_main_v29_apply, val_main_v28_apply, val_main_cst_2_apply, v27_at, Ideal.addf_def, Ideal.ofBits_def,
    Ideal.ofBits_zero_f32, zero_add]

/-- The reference's L1 term at row b·900 + q, column b'·40 + g: its sum starts from a zero, which adds nothing. -/
theorem ref_l1 (x1 : (⟨S32x900x4, .f32⟩ : BufTy).Contents (Elt Ideal)) (x3 : (⟨S32x40x4, .f32⟩ : BufTy).Contents (Elt Ideal)) (b : Fin 32) (q : Fin 900) (b' : Fin 32) (g : Fin 40) :
    val_main_v62 (F := Ideal) x1 x3 (ix2 (rowQ b q) (rowG b' g)) = l1 (F := Ideal) (x1 (ix3 b q (0 : Fin 4))) (x1 (ix3 b q (1 : Fin 4))) (x1 (ix3 b q (2 : Fin 4))) (x1 (ix3 b q (3 : Fin 4))) (x3 (ix3 b' g (0 : Fin 4))) (x3 (ix3 b' g (1 : Fin 4))) (x3 (ix3 b' g (2 : Fin 4))) (x3 (ix3 b' g (3 : Fin 4))) := by
  rw [val_main_v62_apply, val_main_v51_apply, val_main_v40_apply, v29_at, v39_at, v50_at, v61_at]
  rfl

/-- Column 0 of the predicted boxes' corner table [28800, 4] at row b·900 + q. -/
theorem ref_pbox_0 (x1 : (⟨S32x900x4, .f32⟩ : BufTy).Contents (Elt Ideal)) (b : Fin 32) (q : Fin 900) :
    val_main_v87 (F := Ideal) x1 (ix2 (rowQ b q) (0 : Fin 4)) = lo (F := Ideal) (x1 (ix3 b q (0 : Fin 4))) (x1 (ix3 b q (2 : Fin 4))) := by
  unfold val_main_v87
  exact (concat4_col0 (n := 28800) _ _ _ _ _ (rowQ b q)).trans (v83_at x1 b q)

/-- Column 1 of the predicted boxes' corner table [28800, 4] at row b·900 + q. -/
theorem ref_pbox_1 (x1 : (⟨S32x900x4, .f32⟩ : BufTy).Contents (Elt Ideal)) (b : Fin 32) (q : Fin 900) :
    val_main_v87 (F := Ideal) x1 (ix2 (rowQ b q) (1 : Fin 4)) = lo (F := Ideal) (x1 (ix3 b q (1 : Fin 4))) (x1 (ix3 b q (3 : Fin 4))) := by
  unfold val_main_v87
  exact (concat4_col1 (n := 28800) _ _ _ _ _ (rowQ b q)).trans (v84_at x1 b q)

/-- Column 2 of the predicted boxes' corner table [28800, 4] at row b·900 + q. -/
theorem ref_pbox_2 (x1 : (⟨S32x900x4, .f32⟩ : BufTy).Contents (Elt Ideal)) (b : Fin 32) (q : Fin 900) :
    val_main_v87 (F := Ideal) x1 (ix2 (rowQ b q) (2 : Fin 4)) = hi (F := Ideal) (x1 (ix3 b q (0 : Fin 4))) (x1 (ix3 b q (2 : Fin 4))) := by
  unfold val_main_v87
  exact (concat4_col2 (n := 28800) _ _ _ _ _ (rowQ b q)).trans (v85_at x1 b q)

/-- Column 3 of the predicted boxes' corner table [28800, 4] at row b·900 + q. -/
theorem ref_pbox_3 (x1 : (⟨S32x900x4, .f32⟩ : BufTy).Contents (Elt Ideal)) (b : Fin 32) (q : Fin 900) :
    val_main_v87 (F := Ideal) x1 (ix2 (rowQ b q) (3 : Fin 4)) = hi (F := Ideal) (x1 (ix3 b q (1 : Fin 4))) (x1 (ix3 b q (3 : Fin 4))) := by
  unfold val_main_v87
  exact (concat4_col3 (n := 28800) _ _ _ _ _ (rowQ b q)).trans (v86_at x1 b q)

/-- Column 0 of the target boxes' corner table [1280, 4] at row b'·40 + g. -/
theorem ref_tbox_0 (x3 : (⟨S32x40x4, .f32⟩ : BufTy).Contents (Elt Ideal)) (b' : Fin 32) (g : Fin 40) :
    val_main_v112 (F := Ideal) x3 (ix2 (rowG b' g) (0 : Fin 4)) = lo (F := Ideal) (x3 (ix3 b' g (0 : Fin 4))) (x3 (ix3 b' g (2 : Fin 4))) := by
  unfold val_main_v112
  exact (concat4_col0 (n := 1280) _ _ _ _ _ (rowG b' g)).trans (v108_at x3 b' g)

/-- Column 1 of the target boxes' corner table [1280, 4] at row b'·40 + g. -/
theorem ref_tbox_1 (x3 : (⟨S32x40x4, .f32⟩ : BufTy).Contents (Elt Ideal)) (b' : Fin 32) (g : Fin 40) :
    val_main_v112 (F := Ideal) x3 (ix2 (rowG b' g) (1 : Fin 4)) = lo (F := Ideal) (x3 (ix3 b' g (1 : Fin 4))) (x3 (ix3 b' g (3 : Fin 4))) := by
  unfold val_main_v112
  exact (concat4_col1 (n := 1280) _ _ _ _ _ (rowG b' g)).trans (v109_at x3 b' g)

/-- Column 2 of the target boxes' corner table [1280, 4] at row b'·40 + g. -/
theorem ref_tbox_2 (x3 : (⟨S32x40x4, .f32⟩ : BufTy).Contents (Elt Ideal)) (b' : Fin 32) (g : Fin 40) :
    val_main_v112 (F := Ideal) x3 (ix2 (rowG b' g) (2 : Fin 4)) = hi (F := Ideal) (x3 (ix3 b' g (0 : Fin 4))) (x3 (ix3 b' g (2 : Fin 4))) := by
  unfold val_main_v112
  exact (concat4_col2 (n := 1280) _ _ _ _ _ (rowG b' g)).trans (v110_at x3 b' g)

/-- Column 3 of the target boxes' corner table [1280, 4] at row b'·40 + g. -/
theorem ref_tbox_3 (x3 : (⟨S32x40x4, .f32⟩ : BufTy).Contents (Elt Ideal)) (b' : Fin 32) (g : Fin 40) :
    val_main_v112 (F := Ideal) x3 (ix2 (rowG b' g) (3 : Fin 4)) = hi (F := Ideal) (x3 (ix3 b' g (1 : Fin 4))) (x3 (ix3 b' g (3 : Fin 4))) := by
  unfold val_main_v112
  exact (concat4_col3 (n := 1280) _ _ _ _ _ (rowG b' g)).trans (v111_at x3 b' g)

end Cert.ReferenceIdeal.RefValue

end
-- ==== Proof.RefBoxB.lean ====
/-
  The reference's box arithmetic, second half: from the two corner tables to the generalized intersection over union
  at a (row, column) pair — the pairwise max / min of corners over a trailing axis of length 2 (x, y), the clip at 0
  (a maximum with a broadcast zero, the operands in the other order than the kernel's), the products of the two
  components, union, hull and the two quotients.
-/
import proofs.«404723_j42305427865906_3_alg».proof.Proof.RefBoxA

noncomputable section

namespace Cert.ReferenceIdeal.RefValue

open Cert.ReferenceIdeal Cert.ReferenceIdeal.Gen Cert.ReferenceIdeal.ReadP Idealize.ShloMosaic Idealize.ShloMosaic.ValueIdx Cert.MatchCost

/-! ### One column of a corner table, as a vector over the rows

  Slicing column j out of a [n, 4] table and dropping the unit axis reads entry (r, j) at row r. -/

section Columns
variable (x1 : (⟨S32x900x4, .f32⟩ : BufTy).Contents (Elt Ideal)) (x3 : (⟨S32x40x4, .f32⟩ : BufTy).Contents (Elt Ideal))

theorem box_pcol2 (r : Fin 28800) : val_main_v114 (F := Ideal) x1 (ix1 r) = val_main_v87 (F := Ideal) x1 (ix2 r (2 : Fin 4)) := by
  rw [val_main_v114_apply, val_main_v113_apply]
  congr 1; funext a; refine Fin.ext ?_
  match a with
  | ⟨0, _⟩ => show r.val / 1 = r.val; omega
  | ⟨1, _⟩ => rfl

theorem box_pcol0 (r : Fin 28800) : val_main_v116 (F := Ideal) x1 (ix1 r) = val_main_v87 (F := Ideal) x1 (ix2 r (0 : Fin 4)) := by
  rw [val_main_v116_apply, val_main_v115_apply]
  congr 1; funext a; refine Fin.ext ?_
  match a with
  | ⟨0, _⟩ => show r.val / 1 = r.val; omega
  | ⟨1, _⟩ => rfl

theorem box_pcol3 (r : Fin 28800) : val_main_v119 (F := Ideal) x1 (ix1 r) = val_main_v87 (F := Ideal) x1 (ix2 r (3 : Fin 4)) := by
  rw [val_main_v119_apply, val_main_v118_apply]
  congr 1; funext a; refine Fin.ext ?_
  match a with
  | ⟨0, _⟩ => show r.val / 1 = r.val; omega
  | ⟨1, _⟩ => rfl

theorem box_pcol1 (r : Fin 28800) : val_main_v121 (F := Ideal) x1 (ix1 r) = val_main_v87 (F := Ideal) x1 (ix2 r (1 : Fin 4)) := by
  rw [val_main_v121_apply, val_main_v120_apply]
  congr 1; funext a; refine Fin.ext ?_
  match a with
  | ⟨0, _⟩ => show r.val / 1 = r.val; omega
  | ⟨1, _⟩ => rfl

theorem box_tcol2 (c : Fin 1280) : val_main_v125 (F := Ideal) x3 (ix1 c) = val_main_v112 (F := Ideal) x3 (ix2 c (2 : Fin 4)) := by
  rw [val_main_v125_apply, val_main_v124_apply]
  congr 1; funext a; refine Fin.ext ?_
  match a with
  | ⟨0, _⟩ => show c.val / 1 = c.val; omega
  | ⟨1, _⟩ => rfl

theorem box_tcol0 (c : Fin 1280) : val_main_v127 (F := Ideal) x3 (ix1 c) = val_main_v112 (F := Ideal) x3 (ix2 c (0 : Fin 4)) := by
  rw [val_main_v127_apply, val_main_v126_apply]
  congr 1; funext a; refine Fin.ext ?_
  match a with
  | ⟨0, _⟩ => show c.val / 1 = c.val; omega
  | ⟨1, _⟩ => rfl

theorem box_tcol3 (c : Fin 1280) : val_main_v130 (F := Ideal) x3 (ix1 c) = val_main_v112 (F := Ideal) x3 (ix2 c (3 : Fin 4)) := by
  rw [val_main_v130_apply, val_main_v129_apply]
  congr 1; funext a; refine Fin.ext ?_
  match a with
  | ⟨0, _⟩ => show c.val / 1 = c.val; omega
  | ⟨1, _⟩ => rfl

theorem box_tcol1 (c : Fin 1280) : val_main_v132 (F := Ideal) x3 (ix1 c) = val_main_v112 (F := Ideal) x3 (ix2 c (1 : Fin 4)) := by
  rw [val_main_v132_apply, val_main_v131_apply]
  congr 1; funext a; refine Fin.ext ?_
  match a with
  | ⟨0, _⟩ => show c.val / 1 = c.val; omega
  | ⟨1, _⟩ => rfl

/-- The predicted box's area at row b·900 + q: the product of its two sides. -/
theorem box_area_p (b : Fin 32) (q : Fin 900) :
    val_main_v123 (F := Ideal) x1 (ix1 (rowQ b q)) =
      FloatOps.mulf (side (F := Ideal) (x1 (ix3 b q (0 : Fin 4))) (x1 (ix3 b q (2 : Fin 4)))) (side (F := Ideal) (x1 (ix3 b q (1 : Fin 4))) (x1 (ix3 b q (3 : Fin 4)))) := by
  rw [val_main_v123_apply, val_main_v117_apply, val_main_v122_apply, box_pcol2, box_pcol0, box_pcol3, box_pcol1,
    ref_pbox_0, ref_pbox_1, ref_pbox_2, ref_pbox_3]
  rfl

/-- The target box's area at row b'·40 + g. -/
theorem box_area_t (b' : Fin 32) (g : Fin 40) :
    val_main_v134 (F := Ideal) x3 (ix1 (rowG b' g)) =
      FloatOps.mulf (side (F := Ideal) (x3 (ix3 b' g (0 : Fin 4))) (x3 (ix3 b' g (2 : Fin 4)))) (side (F := Ideal) (x3 (ix3 b' g (1 : Fin 4))) (x3 (ix3 b' g (3 : Fin 4)))) := by
  rw [val_main_v134_apply, val_main_v128_apply, val_main_v133_apply, box_tcol2, box_tcol0, box_tcol3, box_tcol1,
    ref_tbox_0, ref_tbox_1, ref_tbox_2, ref_tbox_3]
  rfl

end Columns

/-! ### The corner tables broadcast against each other

  A pair of columns (0:2, the lower corners; 2:4, the upper corners) of a table, broadcast over the other table's rows,
  reads at (r, c, k) the table's own row (r for the predictions, c for the targets) at column k, resp. 2 + k. Each of
  the four broadcasts occurs twice in the program, once for the common part and once for the hull. -/

section Pairwise
variable (x1 : (⟨S32x900x4, .f32⟩ : BufTy).Contents (Elt Ideal)) (x3 : (⟨S32x40x4, .f32⟩ : BufTy).Contents (Elt Ideal))

theorem box_lo_p (r : Fin 28800) (c : Fin 1280) (k : Fin 2) (j : Fin 4) (hj : j.val = k.val) :
    val_main_v139 (F := Ideal) x1 (ix3 r c k) = val_main_v87 (F := Ideal) x1 (ix2 r j) := by
  rw [val_main_v139_apply, val_main_v136_apply, val_main_v135_apply]
  congr 1; funext a; refine Fin.ext ?_
  match a with
  | ⟨0, _⟩ => rfl
  | ⟨1, _⟩ => exact hj.symm

theorem box_lo_t (r : Fin 28800) (c : Fin 1280) (k : Fin 2) (j : Fin 4) (hj : j.val = k.val) :
    val_main_v140 (F := Ideal) x3 (ix3 r c k) = val_main_v112 (F := Ideal) x3 (ix2 c j) := by
  rw [val_main_v140_apply, val_main_v138_apply, val_main_v137_apply]
  congr 1; funext a; refine Fin.ext ?_
  match a with
  | ⟨0, _⟩ => rfl
  | ⟨1, _⟩ => exact hj.symm

theorem box_hi_p (r : Fin 28800) (c : Fin 1280) (k : Fin 2) (j : Fin 4) (hj : j.val = 2 + k.val) :
    val_main_v146 (F := Ideal) x1 (ix3 r c k) = val_main_v87 (F := Ideal) x1 (ix2 r j) := by
  rw [val_main_v146_apply, val_main_v143_apply, val_main_v142_apply]
  congr 1; funext a; refine Fin.ext ?_
  match a with
  | ⟨0, _⟩ => rfl
  | ⟨1, _⟩ => exact hj.symm

theorem box_hi_t (r : Fin 28800) (c : Fin 1280) (k : Fin 2) (j : Fin 4) (hj : j.val = 2 + k.val) :
    val_main_v147 (F := Ideal) x3 (ix3 r c k) = val_main_v112 (F := Ideal) x3 (ix2 c j) := by
  rw [val_main_v147_apply, val_main_v145_apply, val_main_v144_apply]
  congr 1; funext a; refine Fin.ext ?_
  match a with
  | ⟨0, _⟩ => rfl
  | ⟨1, _⟩ => exact hj.symm

theorem box_lo_p' (r : Fin 28800) (c : Fin 1280) (k : Fin 2) (j : Fin 4) (hj : j.val = k.val) :
    val_main_v167 (F := Ideal) x1 (ix3 r c k) = val_main_v87 (F := Ideal) x1 (ix2 r j) := by
  rw [val_main_v167_apply, val_main_v164_apply, val_main_v163_apply]
  congr 1; funext a; refine Fin.ext ?_
  match a with
  | ⟨0, _⟩ => rfl
  | ⟨1, _⟩ => exact hj.symm

theorem box_lo_t' (r : Fin 28800) (c : Fin 1280) (k : Fin 2) (j : Fin 4) (hj : j.val = k.val) :
    val_main_v168 (F := Ideal) x3 (ix3 r c k) = val_main_v112 (F := Ideal) x3 (ix2 c j) := by
  rw [val_main_v168_apply, val_main_v166_apply, val_main_v165_apply]
  congr 1; funext a; refine Fin.ext ?_
  match a with
  | ⟨0, _⟩ => rfl
  | ⟨1, _⟩ => exact hj.symm

theorem box_hi_p' (r : Fin 28800) (c : Fin 1280) (k : Fin 2) (j : Fin 4) (hj : j.val = 2 + k.val) :
    val_main_v174 (F := Ideal) x1 (ix3 r c k) = val_main_v87 (F := Ideal) x1 (ix2 r j) := by
  rw [val_main_v174_apply, val_main_v171_apply, val_main_v170_apply]
  congr 1; funext a; refine Fin.ext ?_
  match a with
  | ⟨0, _⟩ => rfl
  | ⟨1, _⟩ => exact hj.symm

theorem box_hi_t' (r : Fin 28800) (c : Fin 1280) (k : Fin 2) (j : Fin 4) (hj : j.val = 2 + k.val) :
    val_main_v175 (F := Ideal) x3 (ix3 r c k) = val_main_v112 (F := Ideal) x3 (ix2 c j) := by
  rw [val_main_v175_apply, val_main_v173_apply, val_main_v172_apply]
  congr 1; funext a; refine Fin.ext ?_
  match a with
  | ⟨0, _⟩ => rfl
  | ⟨1, _⟩ => exact hj.symm

/-- The larger of two numbers does not depend on their order. -/
theorem box_max_comm (x y : Ideal .f32) : FloatOps.maximumf (F := Ideal) x y = FloatOps.maximumf (F := Ideal) y x := max_comm x y

/-- The clipped difference of the smaller upper corner and the larger lower corner on axis k, from the table entries
    (jl = k the lower corners' column, jh = 2 + k the upper corners'); the zero is moved to the right. -/
theorem box_wh (r : Fin 28800) (c : Fin 1280) (k : Fin 2) (jl jh : Fin 4) (hl : jl.val = k.val) (hh : jh.val = 2 + k.val) :
    val_main_v150 (F := Ideal) x1 x3 (ix3 r c k) =
      FloatOps.maximumf (F := Ideal) (FloatOps.subf (FloatOps.minimumf (val_main_v87 (F := Ideal) x1 (ix2 r jh)) (val_main_v112 (F := Ideal) x3 (ix2 c jh)))
          (FloatOps.maximumf (val_main_v87 (F := Ideal) x1 (ix2 r jl)) (val_main_v112 (F := Ideal) x3 (ix2 c jl))))
        (Scalar.ofBits .f32 0x00000000#32) := by
  rw [val_main_v150_apply, box_max_comm, val_main_call0_v1_apply, val_main_call0_v0_apply, val_main_cst_11_apply,
    val_main_v149_apply, val_main_v148_apply, val_main_v141_apply,
    box_hi_p x1 r c k jh hh, box_hi_t x3 r c k jh hh, box_lo_p x1 r c k jl hl, box_lo_t x3 r c k jl hl]

/-- The same for the hull: the larger upper corner minus the smaller lower corner, clipped at zero. -/
theorem box_whc (r : Fin 28800) (c : Fin 1280) (k : Fin 2) (jl jh : Fin 4) (hl : jl.val = k.val) (hh : jh.val = 2 + k.val) :
    val_main_v178 (F := Ideal) x1 x3 (ix3 r c k) =
      FloatOps.maximumf (F := Ideal) (FloatOps.subf (FloatOps.maximumf (val_main_v87 (F := Ideal) x1 (ix2 r jh)) (val_main_v112 (F := Ideal) x3 (ix2 c jh)))
          (FloatOps.minimumf (val_main_v87 (F := Ideal) x1 (ix2 r jl)) (val_main_v112 (F := Ideal) x3 (ix2 c jl))))
        (Scalar.ofBits .f32 0x00000000#32) := by
  rw [val_main_v178_apply, box_max_comm, val_main_call1_v1_apply, val_main_call1_v0_apply, val_main_cst_12_apply,
    val_main_v177_apply, val_main_v176_apply, val_main_v169_apply,
    box_hi_p' x1 r c k jh hh, box_hi_t' x3 r c k jh hh, box_lo_p' x1 r c k jl hl, box_lo_t' x3 r c k jl hl]

variable (b : Fin 32) (q : Fin 900) (b' : Fin 32) (g : Fin 40)

/-- The overlap on the x axis at row b·900 + q, column b'·40 + g. -/
theorem box_wh0 : val_main_v150 (F := Ideal) x1 x3 (ix3 (rowQ b q) (rowG b' g) (0 : Fin 2)) =
    overlap (F := Ideal) (x1 (ix3 b q (0 : Fin 4))) (x1 (ix3 b q (2 : Fin 4))) (x3 (ix3 b' g (0 : Fin 4))) (x3 (ix3 b' g (2 : Fin 4))) := by
  rw [box_wh x1 x3 _ _ 0 0 2 rfl rfl, ref_pbox_0, ref_pbox_2, ref_tbox_0, ref_tbox_2]
  rfl

/-- The overlap on the y axis. -/
theorem box_wh1 : val_main_v150 (F := Ideal) x1 x3 (ix3 (rowQ b q) (rowG b' g) (1 : Fin 2)) =
    overlap (F := Ideal) (x1 (ix3 b q (1 : Fin 4))) (x1 (ix3 b q (3 : Fin 4))) (x3 (ix3 b' g (1 : Fin 4))) (x3 (ix3 b' g (3 : Fin 4))) := by
  rw [box_wh x1 x3 _ _ 1 1 3 rfl rfl, ref_pbox_1, ref_pbox_3, ref_tbox_1, ref_tbox_3]
  rfl

/-- The hull's span on the x axis. -/
theorem box_whc0 : val_main_v178 (F := Ideal) x1 x3 (ix3 (rowQ b q) (rowG b' g) (0 : Fin 2)) =
    span (F := Ideal) (x1 (ix3 b q (0 : Fin 4))) (x1 (ix3 b q (2 : Fin 4))) (x3 (ix3 b' g (0 : Fin 4))) (x3 (ix3 b' g (2 : Fin 4))) := by
  rw [box_whc x1 x3 _ _ 0 0 2 rfl rfl, ref_pbox_0, ref_pbox_2, ref_tbox_0, ref_tbox_2]
  rfl

/-- The hull's span on the y axis. -/
theorem box_whc1 : val_main_v178 (F := Ideal) x1 x3 (ix3 (rowQ b q) (rowG b' g) (1 : Fin 2)) =
    span (F := Ideal) (x1 (ix3 b q (1 : Fin 4))) (x1 (ix3 b q (3 : Fin 4))) (x3 (ix3 b' g (1 : Fin 4))) (x3 (ix3 b' g (3 : Fin 4))) := by
  rw [box_whc x1 x3 _ _ 1 1 3 rfl rfl, ref_pbox_1, ref_pbox_3, ref_tbox_1, ref_tbox_3]
  rfl

end Pairwise

/-! ### The two components multiplied; the areas broadcast; union, hull, quotients -/

/- Component k of a [28800, 1280, 2] array, as a [28800, 1280] array: the slice and the dropped unit axis read (r, c, k). -/

theorem box_idx_wh0 (r : Fin 28800) (c : Fin 1280) : idx_main_v151 (idx_main_v152 (ix2 r c)) = ix3 r c (0 : Fin 2) := by
  funext a; refine Fin.ext ?_
  have hc := c.isLt
  match a with
  | ⟨0, _⟩ => show (r.val * 1280 + c.val) / 1280 = r.val; omega
  | ⟨1, _⟩ => show (r.val * 1280 + c.val) / 1 % 1280 = c.val; omega
  | ⟨2, _⟩ => rfl

theorem box_idx_wh1 (r : Fin 28800) (c : Fin 1280) : idx_main_v153 (idx_main_v154 (ix2 r c)) = ix3 r c (1 : Fin 2) := by
  funext a; refine Fin.ext ?_
  have hc := c.isLt
  match a with
  | ⟨0, _⟩ => show (r.val * 1280 + c.val) / 1280 = r.val; omega
  | ⟨1, _⟩ => show (r.val * 1280 + c.val) / 1 % 1280 = c.val; omega
  | ⟨2, _⟩ => rfl

theorem box_idx_whc0 (r : Fin 28800) (c : Fin 1280) : idx_main_v179 (idx_main_v180 (ix2 r c)) = ix3 r c (0 : Fin 2) := by
  funext a; refine Fin.ext ?_
  have hc := c.isLt
  match a with
  | ⟨0, _⟩ => show (r.val * 1280 + c.val) / 1280 = r.val; omega
  | ⟨1, _⟩ => show (r.val * 1280 + c.val) / 1 % 1280 = c.val; omega
  | ⟨2, _⟩ => rfl

theorem box_idx_whc1 (r : Fin 28800) (c : Fin 1280) : idx_main_v181 (idx_main_v182 (ix2 r c)) = ix3 r c (1 : Fin 2) := by
  funext a; refine Fin.ext ?_
  have hc := c.isLt
  match a with
  | ⟨0, _⟩ => show (r.val * 1280 + c.val) / 1280 = r.val; omega
  | ⟨1, _⟩ => show (r.val * 1280 + c.val) / 1 % 1280 = c.val; omega
  | ⟨2, _⟩ => rfl

/-- The predictions' areas, broadcast along the columns, read row r. -/
theorem box_idx_area_p (r : Fin 28800) (c : Fin 1280) : idx_main_v156 (idx_main_v158 (ix2 r c)) = ix1 r := by
  funext a; refine Fin.ext ?_
  match a with
  | ⟨0, _⟩ => rfl

/-- The targets' areas, broadcast along the rows, read column c. -/
theorem box_idx_area_t (r : Fin 28800) (c : Fin 1280) : idx_main_v157 (idx_main_v159 (ix2 r c)) = ix1 c := by
  funext a; refine Fin.ext ?_
  match a with
  | ⟨0, _⟩ => rfl

section Pair
variable (x1 : (⟨S32x900x4, .f32⟩ : BufTy).Contents (Elt Ideal)) (x3 : (⟨S32x40x4, .f32⟩ : BufTy).Contents (Elt Ideal))
  (b : Fin 32) (q : Fin 900) (b' : Fin 32) (g : Fin 40)

/-- The common part's area at row b·900 + q, column b'·40 + g. -/
theorem box_inter : val_main_v155 (F := Ideal) x1 x3 (ix2 (rowQ b q) (rowG b' g)) =
    inter (F := Ideal) (x1 (ix3 b q (0 : Fin 4))) (x1 (ix3 b q (1 : Fin 4))) (x1 (ix3 b q (2 : Fin 4))) (x1 (ix3 b q (3 : Fin 4))) (x3 (ix3 b' g (0 : Fin 4))) (x3 (ix3 b' g (1 : Fin 4))) (x3 (ix3 b' g (2 : Fin 4))) (x3 (ix3 b' g (3 : Fin 4))) := by
  rw [val_main_v155_apply, val_main_v152_apply, val_main_v151_apply, box_idx_wh0, val_main_v154_apply, val_main_v153_apply, box_idx_wh1,
    box_wh0, box_wh1]
  rfl

/-- The union's area: the two areas minus the common part. -/
theorem box_union : val_main_v161 (F := Ideal) x1 x3 (ix2 (rowQ b q) (rowG b' g)) =
    union (F := Ideal) (x1 (ix3 b q (0 : Fin 4))) (x1 (ix3 b q (1 : Fin 4))) (x1 (ix3 b q (2 : Fin 4))) (x1 (ix3 b q (3 : Fin 4))) (x3 (ix3 b' g (0 : Fin 4))) (x3 (ix3 b' g (1 : Fin 4))) (x3 (ix3 b' g (2 : Fin 4))) (x3 (ix3 b' g (3 : Fin 4))) := by
  rw [val_main_v161_apply, val_main_v160_apply, val_main_v158_apply, val_main_v156_apply, box_idx_area_p,
    val_main_v159_apply, val_main_v157_apply, box_idx_area_t, box_area_p, box_area_t, box_inter]
  rfl

/-- The hull's area. -/
theorem box_hull : val_main_v183 (F := Ideal) x1 x3 (ix2 (rowQ b q) (rowG b' g)) =
    hull (F := Ideal) (x1 (ix3 b q (0 : Fin 4))) (x1 (ix3 b q (1 : Fin 4))) (x1 (ix3 b q (2 : Fin 4))) (x1 (ix3 b q (3 : Fin 4))) (x3 (ix3 b' g (0 : Fin 4))) (x3 (ix3 b' g (1 : Fin 4))) (x3 (ix3 b' g (2 : Fin 4))) (x3 (ix3 b' g (3 : Fin 4))) := by
  rw [val_main_v183_apply, val_main_v180_apply, val_main_v179_apply, box_idx_whc0, val_main_v182_apply, val_main_v181_apply, box_idx_whc1,
    box_whc0, box_whc1]
  rfl

end Pair

/-- The reference's giou at row b·900 + q, column b'·40 + g is the pair's giou. -/
theorem ref_giou (x1 : (⟨S32x900x4, .f32⟩ : BufTy).Contents (Elt Ideal)) (x3 : (⟨S32x40x4, .f32⟩ : BufTy).Contents (Elt Ideal)) (b : Fin 32) (q : Fin 900) (b' : Fin 32) (g : Fin 40) :
    val_main_v186 (F := Ideal) x1 x3 (ix2 (rowQ b q) (rowG b' g)) = giou (F := Ideal) (x1 (ix3 b q (0 : Fin 4))) (x1 (ix3 b q (1 : Fin 4))) (x1 (ix3 b q (2 : Fin 4))) (x1 (ix3 b q (3 : Fin 4))) (x3 (ix3 b' g (0 : Fin 4))) (x3 (ix3 b' g (1 : Fin 4))) (x3 (ix3 b' g (2 : Fin 4))) (x3 (ix3 b' g (3 : Fin 4))) := by
  -- giou = inter / union − (hull − union) / hull; the host's quotient is the total quotient of the extended reals
  rw [val_main_v186_apply, val_main_v162_apply, val_main_v185_apply, val_main_v184_apply, box_inter, box_union, box_hull]
  rfl

end Cert.ReferenceIdeal.RefValue

end
-- ==== Proof.RefCls.lean ====
/-
  The reference's two gathers. (1) The class term: the probabilities [28800, 91] (the logistic function written out as
  1 / (1 + exp (−x))) gathered along the class axis at the 1280 target labels, a negative label first shifted by 91 and the
  start index clamped into [0, 90]; a label that is a class k reads column k. (2) The per-image diagonal: the cost
  matrix [28800, 1280] viewed as [32, 900, 32, 40] and gathered at the index pairs (b, b), b = 0 … 31.
-/
import proofs.«404723_j42305427865906_3_alg».proof.Proof.ReadP
import proofs.«404723_j42305427865906_3_alg».proof.Proof.MatchCost
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx Cert.MatchCost

/-! ## The class term -/

/-- The word 0x3F800000 is the number one. -/
theorem ofBits_one_f32 : Ideal.ofBits .f32 0x3F800000#32 = 1 := IdealRules.sign_bit.ideal_onePat .f32

/-- A word below 2³¹ is not negative when read signed: compared with 0 it gives the bit 0. -/
theorem slt_zero_of_small (k : Nat) (hk : k < 2 ^ 31) : IntOp.cmpi .slt (BitVec.ofNat 32 k) 0#32 = 0#1 := by
  refine eq_zero_of_ne_one fun h => ?_
  have := (StableHlo.Predicate.slt_ofNat_iff k 0 hk (by decide)).1 h
  omega

/-- The first gather at (n, j), when the start index at j is the class k < 91: the operand's entry (n, k). The start
    index is read signed (k itself) and clamped into [0, 90] (still k); axis 0 is the offset axis and carries n. -/
theorem gather_cls_apply {α : Type} (x : S28800x91.Idx → α) (idx : IVec S1280x1 32) (n : Fin 28800) (j : Fin 1280)
    (k : Fin 91) (h : idx (ix2 j (0 : Fin 1)) = BitVec.ofNat 32 k.val) :
    Host.gather gather_S28800x91_S1280x1_S28800x1280_0_1_n_n_1_1_288001 x idx (ix2 n j) = x (ix2 n k) := by
  unfold Host.gather
  congr 1
  funext a
  refine Fin.ext ?_
  match a with
  | ⟨0, _⟩ =>
    show gather_S28800x91_S1280x1_S28800x1280_0_1_n_n_1_1_288001.start (ix2 n j) idx 0
      + gather_S28800x91_S1280x1_S28800x1280_0_1_n_n_1_1_288001.batchCoord (ix2 n j) 0
      + gather_S28800x91_S1280x1_S28800x1280_0_1_n_n_1_1_288001.offCoord (ix2 n j) 0 = n.val
    rw [GatherDims.batchCoord_eq_zero _ _ _ List.not_mem_nil]
    unfold GatherDims.start
    rw [dif_neg (by decide)]
    unfold GatherDims.offCoord
    rw [dif_pos (by decide)]
    show 0 + 0 + n.val = n.val
    omega
  | ⟨1, _⟩ =>
    show gather_S28800x91_S1280x1_S28800x1280_0_1_n_n_1_1_288001.start (ix2 n j) idx 1
      + gather_S28800x91_S1280x1_S28800x1280_0_1_n_n_1_1_288001.batchCoord (ix2 n j) 1
      + gather_S28800x91_S1280x1_S28800x1280_0_1_n_n_1_1_288001.offCoord (ix2 n j) 1 = k.val
    rw [GatherDims.batchCoord_eq_zero _ _ _ List.not_mem_nil]
    rw [GatherDims.offCoord_eq_zero _ _ _ (by decide)]
    unfold GatherDims.start
    rw [dif_pos (by decide)]
    have hsi : gather_S28800x91_S1280x1_S28800x1280_0_1_n_n_1_1_288001.siIdx (ix2 n j)
        ⟨List.idxOf (1 : Fin 2) gather_S28800x91_S1280x1_S28800x1280_0_1_n_n_1_1_288001.startIndexMap,
          List.idxOf_lt_length_iff.2 (by decide)⟩ = ix2 j (0 : Fin 1) := by
      funext b; refine Fin.ext ?_
      match b with
      | ⟨0, _⟩ => rfl
      | ⟨1, _⟩ => rfl
    rw [hsi, h]
    have hk := k.isLt
    show min (BitVec.ofNat 32 k.val).toInt.toNat (91 - 1) + 0 + 0 = k.val
    rw [StableHlo.Predicate.toInt_ofNat_small _ (by omega), Int.toNat_natCast]
    omega

/-- Row b·900 + q, class c of the flattened logits is entry (b, q, c). -/
theorem idx_main_v0_row (b : Fin 32) (q : Fin 900) (c : Fin 91) : idx_main_v0 (ix2 (rowQ b q) c) = ix3 b q c := by
  have hb := b.isLt; have hq := q.isLt; have hc := c.isLt
  funext a; refine Fin.ext ?_
  match a with
  | ⟨0, _⟩ => show ((b.val * 900 + q.val) * 91 + c.val) / 81900 = b.val; omega
  | ⟨1, _⟩ => show ((b.val * 900 + q.val) * 91 + c.val) / 91 % 900 = q.val; omega
  | ⟨2, _⟩ => show ((b.val * 900 + q.val) * 91 + c.val) % 91 = c.val; omega

/-- Entry b'·40 + g of the flattened labels is entry (b', g). -/
theorem idx_main_v8_row (b' : Fin 32) (g : Fin 40) : idx_main_v8 (ix1 (rowG b' g)) = ix2 b' g := by
  have hb := b'.isLt; have hg := g.isLt
  funext a; refine Fin.ext ?_
  match a with
  | ⟨0, _⟩ => show (b'.val * 40 + g.val) / 40 = b'.val; omega
  | ⟨1, _⟩ => show (b'.val * 40 + g.val) % 40 = g.val; omega

/-- The probabilities at row b·900 + q, class c: the logistic function of the logit (b, q, c). -/
theorem val_main_v6_row (x0 : (⟨S32x900x91, .f32⟩ : BufTy).Contents (Elt Ideal)) (b : Fin 32) (q : Fin 900) (c : Fin 91) :
    val_main_v6 (F := Ideal) x0 (ix2 (rowQ b q) c) = Ideal.logistic (x0 (ix3 b q c)) := by
  rw [val_main_v6_apply, val_main_v5_apply, val_main_cst_0_apply, val_main_v4_apply, val_main_v3_apply, val_main_cst_apply,
    val_main_v2_apply, val_main_v1_apply, val_main_v0_apply, idx_main_v0_row]
  show Ideal.div (Ideal.ofBits .f32 0x3F800000#32) (Ideal.ofBits .f32 0x3F800000#32 + Ideal.exp (-(x0 (ix3 b q c)))) = _
  rw [ofBits_one_f32]
  rfl

/-- The start-index column at row b'·40 + g, when that label is the class k: the word k (it is not negative, so the
    shift by 91 is not taken). -/
theorem val_main_v15_row (x2 : (⟨S32x40, .i32⟩ : BufTy).Contents (Elt Ideal)) (b' : Fin 32) (g : Fin 40) (k : Fin 91)
    (hk : x2 (ix2 b' g) = BitVec.ofNat 32 k.val) :
    val_main_v15 (F := Ideal) x2 (ix2 (rowG b' g) (0 : Fin 1)) = BitVec.ofNat 32 k.val := by
  have hi : idx_main_v15 (ix2 (rowG b' g) (0 : Fin 1)) = ix1 (rowG b' g) := by
    funext a
    match a with
    | ⟨0, _⟩ => rfl
  have hk' := k.isLt
  rw [val_main_v15_apply, hi, val_main_v14_apply, val_main_v11_apply, val_main_v10_apply, val_main_c_apply, val_main_v8_apply,
    idx_main_v8_row, hk, slt_zero_of_small _ (by omega), select_zero]

/-- The reference's class term at row b·900 + q, column b'·40 + g, when that target's label is the class k: minus
    the probability of class k. -/
theorem ref_cls (x0 : (⟨S32x900x91, .f32⟩ : BufTy).Contents (Elt Ideal)) (x2 : (⟨S32x40, .i32⟩ : BufTy).Contents (Elt Ideal)) (b : Fin 32) (q : Fin 900) (b' : Fin 32) (g : Fin 40) (k : Fin 91)
    (hk : x2 (ix2 b' g) = BitVec.ofNat 32 k.val) :
    val_main_v17 (F := Ideal) x0 x2 (ix2 (rowQ b q) (rowG b' g)) = -(Ideal.logistic (x0 (ix3 b q k))) := by
  rw [val_main_v17_apply]
  unfold val_main_v16
  rw [gather_cls_apply _ _ _ _ k (val_main_v15_row x2 b' g k hk), val_main_v6_row]
  rfl

/-! ## The per-image diagonal -/

/-- The second gather at (b, q, g), when row b of the index table holds the words c0, c2 < 32: the operand's entry
    (c0, q, c2, g). Axes 0 and 2 are start-indexed and collapsed (each start read signed and clamped into [0, 31]);
    axes 1 and 3 are the offset axes and carry q and g. -/
theorem gather_pick_apply {α : Type} (x : S32x900x32x40.Idx → α) (idx : IVec S32x2 32) (b : Fin 32) (q : Fin 900) (g : Fin 40)
    (c0 c2 : Fin 32) (h0 : idx (ix2 b (0 : Fin 2)) = BitVec.ofNat 32 c0.val) (h2 : idx (ix2 b (1 : Fin 2)) = BitVec.ofNat 32 c2.val) :
    Host.gather gather_S32x900x32x40_S32x2_S32x900x40_12_02_n_n_02_1_1900140 x idx (ix3 b q g) = x (ix4 c0 q c2 g) := by
  unfold Host.gather
  congr 1
  funext a
  refine Fin.ext ?_
  match a with
  | ⟨0, _⟩ =>
    show gather_S32x900x32x40_S32x2_S32x900x40_12_02_n_n_02_1_1900140.start (ix3 b q g) idx 0
      + gather_S32x900x32x40_S32x2_S32x900x40_12_02_n_n_02_1_1900140.batchCoord (ix3 b q g) 0
      + gather_S32x900x32x40_S32x2_S32x900x40_12_02_n_n_02_1_1900140.offCoord (ix3 b q g) 0 = c0.val
    rw [GatherDims.batchCoord_eq_zero _ _ _ List.not_mem_nil, GatherDims.offCoord_eq_zero _ _ _ (by decide)]
    unfold GatherDims.start
    rw [dif_pos (by decide)]
    have hsi : gather_S32x900x32x40_S32x2_S32x900x40_12_02_n_n_02_1_1900140.siIdx (ix3 b q g)
        ⟨List.idxOf (0 : Fin 4) gather_S32x900x32x40_S32x2_S32x900x40_12_02_n_n_02_1_1900140.startIndexMap,
          List.idxOf_lt_length_iff.2 (by decide)⟩ = ix2 b (0 : Fin 2) := by
      funext e; refine Fin.ext ?_
      match e with
      | ⟨0, _⟩ => rfl
      | ⟨1, _⟩ => rfl
    rw [hsi, h0]
    have hc := c0.isLt
    show min (BitVec.ofNat 32 c0.val).toInt.toNat (32 - 1) + 0 + 0 = c0.val
    rw [StableHlo.Predicate.toInt_ofNat_small _ (by omega), Int.toNat_natCast]
    omega
  | ⟨1, _⟩ =>
    show gather_S32x900x32x40_S32x2_S32x900x40_12_02_n_n_02_1_1900140.start (ix3 b q g) idx 1
      + gather_S32x900x32x40_S32x2_S32x900x40_12_02_n_n_02_1_1900140.batchCoord (ix3 b q g) 1
      + gather_S32x900x32x40_S32x2_S32x900x40_12_02_n_n_02_1_1900140.offCoord (ix3 b q g) 1 = q.val
    rw [GatherDims.batchCoord_eq_zero _ _ _ List.not_mem_nil]
    unfold GatherDims.start
    rw [dif_neg (by decide)]
    unfold GatherDims.offCoord
    rw [dif_pos (by decide)]
    show 0 + 0 + q.val = q.val
    omega
  | ⟨2, _⟩ =>
    show gather_S32x900x32x40_S32x2_S32x900x40_12_02_n_n_02_1_1900140.start (ix3 b q g) idx 2
      + gather_S32x900x32x40_S32x2_S32x900x40_12_02_n_n_02_1_1900140.batchCoord (ix3 b q g) 2
      + gather_S32x900x32x40_S32x2_S32x900x40_12_02_n_n_02_1_1900140.offCoord (ix3 b q g) 2 = c2.val
    rw [GatherDims.batchCoord_eq_zero _ _ _ List.not_mem_nil, GatherDims.offCoord_eq_zero _ _ _ (by decide)]
    unfold GatherDims.start
    rw [dif_pos (by decide)]
    have hsi : gather_S32x900x32x40_S32x2_S32x900x40_12_02_n_n_02_1_1900140.siIdx (ix3 b q g)
        ⟨List.idxOf (2 : Fin 4) gather_S32x900x32x40_S32x2_S32x900x40_12_02_n_n_02_1_1900140.startIndexMap,
          List.idxOf_lt_length_iff.2 (by decide)⟩ = ix2 b (1 : Fin 2) := by
      funext e; refine Fin.ext ?_
      match e with
      | ⟨0, _⟩ => rfl
      | ⟨1, _⟩ => rfl
    rw [hsi, h2]
    have hc := c2.isLt
    show min (BitVec.ofNat 32 c2.val).toInt.toNat (32 - 1) + 0 + 0 = c2.val
    rw [StableHlo.Predicate.toInt_ofNat_small _ (by omega), Int.toNat_natCast]
    omega
  | ⟨3, _⟩ =>
    show gather_S32x900x32x40_S32x2_S32x900x40_12_02_n_n_02_1_1900140.start (ix3 b q g) idx 3
      + gather_S32x900x32x40_S32x2_S32x900x40_12_02_n_n_02_1_1900140.batchCoord (ix3 b q g) 3
      + gather_S32x900x32x40_S32x2_S32x900x40_12_02_n_n_02_1_1900140.offCoord (ix3 b q g) 3 = g.val
    rw [GatherDims.batchCoord_eq_zero _ _ _ List.not_mem_nil]
    unfold GatherDims.start
    rw [dif_neg (by decide)]
    unfold GatherDims.offCoord
    rw [dif_pos (by decide)]
    show 0 + 0 + g.val = g.val
    omega

/-- The first image counter at b: the word b (it is not negative, so the shift by 32 is not taken). -/
theorem val_main_v203_at (b : Fin 32) : val_main_v203 (F := Ideal) (ix1 b) = BitVec.ofNat 32 b.val := by
  have hb := b.isLt
  rw [val_main_v203_apply, val_main_v200_apply, val_main_v199_apply, val_main_c_16_apply, val_main_v197_apply]
  show Scalar.select (IntOp.cmpi .slt (BitVec.ofNat 32 b.val) 0#32) _ (BitVec.ofNat 32 b.val) = _
  rw [slt_zero_of_small _ (by omega), select_zero]

/-- The second image counter at b: the word b, likewise. -/
theorem val_main_v208_at (b : Fin 32) : val_main_v208 (F := Ideal) (ix1 b) = BitVec.ofNat 32 b.val := by
  have hb := b.isLt
  rw [val_main_v208_apply, val_main_v205_apply, val_main_v204_apply, val_main_c_18_apply, val_main_v198_apply]
  show Scalar.select (IntOp.cmpi .slt (BitVec.ofNat 32 b.val) 0#32) _ (BitVec.ofNat 32 b.val) = _
  rw [slt_zero_of_small _ (by omega), select_zero]

/-- Column 0 of the index table's row b is the first counter's column: the word b. -/
theorem val_main_v211_col0 (b : Fin 32) : val_main_v211 (F := Ideal) (ix2 b (0 : Fin 2)) = BitVec.ofNat 32 b.val := by
  unfold val_main_v211
  refine (concatenate_pair_apply_left (t := S32x2) (s₁ := S32x1) (s₂ := S32x1) _ _ _ _ (ix2 b (0 : Fin 2)) rfl (ix2 b (0 : Fin 1))
    (fun e => match e with | ⟨0, _⟩ => rfl | ⟨1, _⟩ => rfl)).trans ?_
  have hi : idx_main_v209 (ix2 b (0 : Fin 1)) = ix1 b := by
    funext a
    match a with
    | ⟨0, _⟩ => rfl
  rw [val_main_v209_apply, hi, val_main_v203_at]

/-- Column 1 of the index table's row b is the second counter's column: the word b. -/
theorem val_main_v211_col1 (b : Fin 32) : val_main_v211 (F := Ideal) (ix2 b (1 : Fin 2)) = BitVec.ofNat 32 b.val := by
  unfold val_main_v211
  refine (concatenate_pair_apply_right (t := S32x2) (s₁ := S32x1) (s₂ := S32x1) _ _ _ _ (ix2 b (1 : Fin 2)) rfl rfl (ix2 b (0 : Fin 1))
    (fun e => match e with | ⟨0, _⟩ => fun _ => rfl | ⟨1, _⟩ => fun h => absurd rfl h) rfl).trans ?_
  have hi : idx_main_v210 (ix2 b (0 : Fin 1)) = ix1 b := by
    funext a
    match a with
    | ⟨0, _⟩ => rfl
  rw [val_main_v210_apply, hi, val_main_v208_at]

/-- Entry (b, q, b, g) of the cost matrix viewed as [32, 900, 32, 40] is its row b·900 + q, column b·40 + g:
    ((b·900 + q)·32 + b)·40 + g = (b·900 + q)·1280 + (b·40 + g). -/
theorem idx_main_v196_diag (b : Fin 32) (q : Fin 900) (g : Fin 40) :
    idx_main_v196 (ix4 b q b g) = ix2 (rowQ b q) (rowG b g) := by
  have hb := b.isLt; have hq := q.isLt; have hg := g.isLt
  funext a; refine Fin.ext ?_
  match a with
  | ⟨0, _⟩ => show (((b.val * 900 + q.val) * 32 + b.val) * 40 + g.val) / 1280 = b.val * 900 + q.val; omega
  | ⟨1, _⟩ => show (((b.val * 900 + q.val) * 32 + b.val) * 40 + g.val) % 1280 = b.val * 40 + g.val; omega

/-- The result at (b, q, g) is the cost matrix at row b·900 + q, column b·40 + g: image b's own targets. -/
theorem ref_pick (x0 : (⟨S32x900x91, .f32⟩ : BufTy).Contents (Elt Ideal)) (x1 : (⟨S32x900x4, .f32⟩ : BufTy).Contents (Elt Ideal)) (x2 : (⟨S32x40, .i32⟩ : BufTy).Contents (Elt Ideal)) (x3 : (⟨S32x40x4, .f32⟩ : BufTy).Contents (Elt Ideal)) (b : Fin 32) (q : Fin 900) (g : Fin 40) :
    val_main_v212 (F := Ideal) x0 x1 x2 x3 (ix3 b q g) = val_main_v195 (F := Ideal) x0 x1 x2 x3 (ix2 (rowQ b q) (rowG b g)) := by
  unfold val_main_v212
  rw [gather_pick_apply _ _ b q g b b (val_main_v211_col0 b) (val_main_v211_col1 b), val_main_v196_apply, idx_main_v196_diag]

end Cert.ReferenceIdeal.RefValue

end
-- ==== Proof.HotSum.lean ====
/-
  A label that is a class k gives weight 1 to class k and 0 to every other class, so the weighted sum of any 91 numbers
  is the k-th one. And the precondition's two added conjuncts (every label ≥ 0, every label < 91, signed) say exactly
  that every label is a class.
-/
import proofs.«404723_j42305427865906_3_alg».proof.Pre_finite_inputs
import proofs.«404723_j42305427865906_3_alg».proof.Proof.Gen.Pre_finite_inputs
import proofs.«404723_j42305427865906_3_alg».proof.Proof.MatchCost
import Idealize.ShloMosaic.PureOps.Ideal.Laws
import Idealize.ShloMosaic.Lib.ValueIdx
import Idealize.ShloMosaic.Lib.ReduceAll
import Idealize.ShloMosaic.Lib.StableHlo.Predicate

noncomputable section

namespace Cert.MatchCost

open Idealize.ShloMosaic Idealize.ShloMosaic.ValueIdx

/-- Two classes below 91 with the same 32-bit word are the same class. -/
private theorem ofNat_class_inj (c k : Fin 91) (e : BitVec.ofNat 32 c.val = BitVec.ofNat 32 k.val) : c = k := by
  have h := congrArg BitVec.toNat e
  rw [BitVec.toNat_ofNat, BitVec.toNat_ofNat] at h
  have hc := c.isLt
  have hk := k.isLt
  exact Fin.ext (by omega)

/-- The weight of the label's own class is 1: the comparison's bit is 1, whose widening reads 1. -/
private theorem hot_self (k : Fin 91) : hot (BitVec.ofNat 32 k.val) k = 1 := by
  have e : IntOp.cmpi .eq (BitVec.ofNat 32 k.val) (BitVec.ofNat 32 k.val) = 1#1 := StableHlo.Predicate.cmpi_eq_iff.2 rfl
  show ((((IntOp.cmpi .eq (BitVec.ofNat 32 k.val) (BitVec.ofNat 32 k.val)).setWidth 32).toInt : ℝ) : EReal) = 1
  rw [e]
  have t : ((1#1 : BitVec 1).setWidth 32).toInt = 1 := by decide
  rw [t]
  simp

/-- The weight of any other class is 0: the comparison's bit is not 1, so it is 0, whose widening reads 0. -/
private theorem hot_other (k c : Fin 91) (hc : c ≠ k) : hot (BitVec.ofNat 32 k.val) c = 0 := by
  have e : IntOp.cmpi .eq (BitVec.ofNat 32 c.val) (BitVec.ofNat 32 k.val) = 0#1 :=
    eq_zero_of_ne_one fun h => hc (ofNat_class_inj c k (StableHlo.Predicate.cmpi_eq_iff.1 h))
  show ((((IntOp.cmpi .eq (BitVec.ofNat 32 c.val) (BitVec.ofNat 32 k.val)).setWidth 32).toInt : ℝ) : EReal) = 0
  rw [e]
  have t : ((0#1 : BitVec 1).setWidth 32).toInt = 0 := by decide
  rw [t]
  simp

/-- The one-hot weighted sum picks the label's class. -/
theorem sum_hot (label : BitVec 32) (k : Fin 91) (hk : label = BitVec.ofNat 32 k.val) (f : Fin 91 → EReal) :
    ∑ c : Fin 91, hot label c * f c = f k := by
  subst hk
  rw [Finset.sum_eq_single k (fun c _ hc => by rw [hot_other k c hc, zero_mul]) (fun h => absurd (Finset.mem_univ k) h),
    hot_self, one_mul]

/-- A 32-bit word that is at least 0 and below 91, both signed, is below 91 unsigned. -/
private theorem toNat_lt_91 (w : BitVec 32) (h0 : IntOp.cmpi .sge w 0#32 = 1#1) (h1 : IntOp.cmpi .slt w 91#32 = 1#1) : w.toNat < 91 := by
  have p0 : (0#32 : BitVec 32).toInt ≤ w.toInt := IntOp.cmpi_sge.1 h0
  have p1 : w.toInt < (91#32 : BitVec 32).toInt := IntOp.cmpi_slt.1 h1
  have z0 : (0#32 : BitVec 32).toInt = 0 := by decide
  have z1 : (91#32 : BitVec 32).toInt = 91 := by decide
  rw [z0] at p0
  rw [z1] at p1
  have hw := w.isLt
  rw [BitVec.toInt_eq_toNat_cond] at p0 p1
  split at p0 <;> omega

/-- The precondition decoded: every target label is one of the 91 classes. -/
theorem labels_of_pre [Cert.Pre_finite_inputs.Facts]
    (a0 : FVec Ideal Cert.Pre_finite_inputs.S32x900x91 .f32) (a1 : FVec Ideal Cert.Pre_finite_inputs.S32x900x4 .f32)
    (a2 : IVec Cert.Pre_finite_inputs.S32x40 32) (a3 : FVec Ideal Cert.Pre_finite_inputs.S32x40x4 .f32)
    (h : Cert.Pre_finite_inputs.fn (F := Ideal) a0 a1 a2 a3 = fun _ => 1#1) : LabelsInRange a2 := by
  have e := congrFun h ix0
  unfold Cert.Pre_finite_inputs.fn Cert.Pre_finite_inputs.fn_part1 at e
  dsimp only at e
  -- the conjunction's last two conjuncts: all labels ≥ 0, all labels < 91
  obtain ⟨e1, hlt⟩ := IntOp.andi_eq_one.1 e
  obtain ⟨-, hge⟩ := IntOp.andi_eq_one.1 e1
  intro b g
  -- a rank-0 array has one index
  haveI : Subsingleton Cert.Pre_finite_inputs.S_.Idx := ⟨fun a b => funext fun d => d.elim0⟩
  have g0 := Host.reduce_andi_all _ _ _ _ ix0 hge (ix2 b g)
  have g1 := Host.reduce_andi_all _ _ _ _ ix0 hlt (ix2 b g)
  have hw : (a2 (ix2 b g)).toNat < 91 := toNat_lt_91 (a2 (ix2 b g)) g0 g1
  refine ⟨⟨(a2 (ix2 b g)).toNat, hw⟩, BitVec.eq_of_toNat_eq ?_⟩
  show (a2 (ix2 b g)).toNat = (BitVec.ofNat 32 (a2 (ix2 b g)).toNat).toNat
  rw [BitVec.toNat_ofNat]
  omega

end Cert.MatchCost

end
-- ==== Proof.RefValue.lean ====
/-
  The reference's result is the cost array. At (b, q, g) the final gather reads the cost matrix at row b·900 + q and
  column b·40 + g; there the matrix is (2 · class term + 5 · L1) + 2 · (−giou). The class term is minus the probability of
  the target's class, which the one-hot weighted sum of the 91 probabilities picks when the label is a class; a negation
  is the difference from zero on the extended reals.
-/
import proofs.«404723_j42305427865906_3_alg».proof.Proof.RefBoxB
import proofs.«404723_j42305427865906_3_alg».proof.Proof.RefCls
import proofs.«404723_j42305427865906_3_alg».proof.Proof.HotSum

noncomputable section

namespace Cert.ReferenceIdeal.RefValue

open Cert.ReferenceIdeal Cert.ReferenceIdeal.Gen Cert.ReferenceIdeal.ReadP Idealize.ShloMosaic Idealize.ShloMosaic.ValueIdx Cert.MatchCost

/-- Under labels that are classes, the reference's result array is the cost array of its four arguments. -/
theorem ref_value (x0 : (⟨S32x900x91, .f32⟩ : BufTy).Contents (Elt Ideal)) (x1 : (⟨S32x900x4, .f32⟩ : BufTy).Contents (Elt Ideal)) (x2 : (⟨S32x40, .i32⟩ : BufTy).Contents (Elt Ideal)) (x3 : (⟨S32x40x4, .f32⟩ : BufTy).Contents (Elt Ideal)) (hl : LabelsInRange x2) :
    val_main_v212 (F := Ideal) x0 x1 x2 x3 = G x0 x1 x2 x3 := by
  funext i
  obtain ⟨b, q, g, rfl⟩ : ∃ (b : Fin 32) (q : Fin 900) (g : Fin 40), i = ix3 b q g := ⟨i 0, i 1, i 2, eq_ix3 i⟩
  obtain ⟨k, hk⟩ := hl b g
  rw [ref_pick, val_main_v195_apply, val_main_v192_apply, val_main_v189_apply, val_main_v191_apply, val_main_v194_apply,
    val_main_v187_apply, val_main_v188_apply, val_main_v190_apply, val_main_v193_apply, val_main_cst_13_apply,
    val_main_cst_14_apply, val_main_cst_15_apply, ref_cls x0 x2 b q b g k hk, ref_l1, ref_giou]
  show _ = cost (F := Ideal) (cls x0 x2 b q g)
    (x1 (ix3 b q (0 : Fin 4))) (x1 (ix3 b q (1 : Fin 4))) (x1 (ix3 b q (2 : Fin 4))) (x1 (ix3 b q (3 : Fin 4)))
    (x3 (ix3 b g (0 : Fin 4))) (x3 (ix3 b g (1 : Fin 4))) (x3 (ix3 b g (2 : Fin 4))) (x3 (ix3 b g (3 : Fin 4)))
  unfold cost cls
  rw [sum_hot (x2 (ix2 b g)) k hk (fun c => Ideal.logistic (x0 (ix3 b q c)))]
  simp only [Ideal.hostNegf_def, Ideal.negf_def, Ideal.subf_def, Ideal.ofBits_def, Scalar.ofBits, Ideal.ofBits_zero_f32, zero_sub]

end Cert.ReferenceIdeal.RefValue

end
-- ==== Proof.lean ====
/-
  The certificate of the matcher-cost kernel against its jnp reference, over the extended reals.

  Both programs compute, for every image b, query q and target g, the pair cost
      (2 · cls + 5 · l1) + 2 · (0 − giou)
  of the query's predicted box and the target's box (Proof/MatchCost.lean), where cls is minus the predicted probability
  of the target's class. The kernel gets that probability as a product of a one-hot table of the labels with the
  probabilities; the reference gathers it at the label. The two agree when every label is one of the 91 classes, which is
  what the precondition's last two conjuncts say (a label outside the range makes the kernel's table row all zero while
  the reference's gather wraps or clamps the index). No finiteness is used: every other operation is applied by both
  programs to the same numbers in the same order, up to the order of the operands of a maximum, a sum that starts from
  zero, and a negation written as a difference from zero.

  The kernel's side: Proof/KBlock.lean (one grid point's block), Proof/KArray.lean (the eight blocks tile the result).
  The reference's side: Proof/RefBoxA.lean, Proof/RefBoxB.lean (the box arithmetic), Proof/RefCls.lean (the two gathers),
  Proof/RefValue.lean (the result array). Proof/HotSum.lean: the one-hot sum, and the precondition decoded.
-/
import proofs.«404723_j42305427865906_3_alg».proof.Defs
import proofs.«404723_j42305427865906_3_alg».proof.Proof.Gen.Kernel
import proofs.«404723_j42305427865906_3_alg».proof.Proof.Gen.Kernel.Skeleton
import proofs.«404723_j42305427865906_3_alg».proof.Proof.Gen.Kernel.Launch
import proofs.«404723_j42305427865906_3_alg».proof.Proof.Gen.Kernel.Points
import proofs.«404723_j42305427865906_3_alg».proof.Proof.Gen.Kernel.Frame
import proofs.«404723_j42305427865906_3_alg».proof.Proof.Gen.KernelIdeal
import proofs.«404723_j42305427865906_3_alg».proof.Proof.Gen.KernelIdeal.Skeleton
import proofs.«404723_j42305427865906_3_alg».proof.Proof.Gen.KernelIdeal.Launch
import proofs.«404723_j42305427865906_3_alg».proof.Proof.Gen.KernelIdeal.Points
import proofs.«404723_j42305427865906_3_alg».proof.Proof.Gen.KernelIdeal.Frame
import proofs.«404723_j42305427865906_3_alg».proof.Proof.Gen.ReferenceIdeal
import proofs.«404723_j42305427865906_3_alg».proof.Proof.Gen.Pre_finite_inputs
import proofs.«404723_j42305427865906_3_alg».proof.Proof.KArray
import proofs.«404723_j42305427865906_3_alg».proof.Proof.RefValue
import proofs.«404723_j42305427865906_3_alg».proof.Proof.RunP
import Idealize.ShloMosaic.Adequacy
import Idealize.ShloMosaic.Init

noncomputable section

namespace Cert.Proof

open Idealize.ShloMosaic Idealize.ShloMosaic.TcCoe Idealize.SL.Sem

namespace Claims

/-- The reference run's result term is the last stage of the reference read operation by operation. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v212 m c
      = Cert.ReferenceIdeal.ReadP.val_main_v212 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) := by
  unfold Cert.ReferenceIdeal.ValueP.res_main_v212; rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The kernel's result array ends at the cost array of its arguments; the reference's at its last stage of arguments that
    agree with the kernel's, which is the same cost array because the precondition makes every label a class. -/
theorem algebraic : Cert.algebraic_KernelIdeal_ReferenceIdeal := by
  intro m ρ m' ρ' hpre hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [ref_result m' c, (hagree c).1, (hagree c).2.1, (hagree c).2.2.1, (hagree c).2.2.2]
  exact Cert.ReferenceIdeal.RefValue.ref_value _ _ _ _ (Cert.MatchCost.labels_of_pre _ _ _ _ (hpre c))

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
